-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x8 : Shape := ⟨2, ![1024, 8]⟩
abbrev S8x1024 : Shape := ⟨2, ![8, 1024]⟩
abbrev S1024x16 : Shape := ⟨2, ![1024, 16]⟩
abbrev S16x1024 : Shape := ⟨2, ![16, 1024]⟩
abbrev S1024x32 : Shape := ⟨2, ![1024, 32]⟩
abbrev S32x1024 : Shape := ⟨2, ![32, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S8x1024 : S_.BroadcastsInDim S8x1024 (![] : Fin 0 → Fin S8x1024.rank)
  reducesTo_S8x1024_S_d0_1 : S8x1024.ReducesTo [0, 1] S_
  bcast_S_S1024x16 : S_.BroadcastsInDim S1024x16 (![] : Fin 0 → Fin S1024x16.rank)
  reducesTo_S1024x16_S_d0_1 : S1024x16.ReducesTo [0, 1] S_
  bcast_S_S16x1024 : S_.BroadcastsInDim S16x1024 (![] : Fin 0 → Fin S16x1024.rank)
  reducesTo_S16x1024_S_d0_1 : S16x1024.ReducesTo [0, 1] S_
  bcast_S_S1024x32 : S_.BroadcastsInDim S1024x32 (![] : Fin 0 → Fin S1024x32.rank)
  reducesTo_S1024x32_S_d0_1 : S1024x32.ReducesTo [0, 1] S_
  bcast_S_S32x1024 : S_.BroadcastsInDim S32x1024 (![] : Fin 0 → Fin S32x1024.rank)
  reducesTo_S32x1024_S_d0_1 : S32x1024.ReducesTo [0, 1] S_

variable [Facts]

def fn_part4 {F : FTy → Type} [FloatOps F] (main_arg14 : FVec F S8x1024 .f32) (main_arg15 : FVec F S1024x16 .f32) (main_arg16 : FVec F S16x1024 .f32) (main_v63 : IVec S_ 1) (main_v67 : IVec S_ 1) : IVec S_ 1 :=
  let main_v68 : IVec S_ 1 := andi main_v63 main_v67
  let main_v69 : FVec F S8x1024 .f32 := Host.absf main_arg14
  let main_cst_26 : FVec F S_ .f32 := constant S_ .f32 0x7F800000#32
  let main_v70 : FVec F S8x1024 .f32 := broadcastInDim S8x1024 ![] bcast_S_S8x1024 main_cst_26
  let main_v71 : IVec S8x1024 1 := cmpf .olt main_v69 main_v70
  let main_c_27 : IVec S_ 1 := constantI S_ 1 1#1
  let main_v72 : IVec S_ 1 := (fun x v => Host.reduce IntOp.andi x v reducesTo_S8x1024_S_d0_1 h_S_) main_v71 main_c_27
  let main_v73 : IVec S_ 1 := andi main_v68 main_v72
  let main_v74 : FVec F S1024x16 .f32 := Host.absf main_arg15
  let main_cst_28 : FVec F S_ .f32 := constant S_ .f32 0x7F800000#32
  let main_v75 : FVec F S1024x16 .f32 := broadcastInDim S1024x16 ![] bcast_S_S1024x16 main_cst_28
  let main_v76 : IVec S1024x16 1 := cmpf .olt main_v74 main_v75
  let main_c_29 : IVec S_ 1 := constantI S_ 1 1#1
  let main_v77 : IVec S_ 1 := (fun x v => Host.reduce IntOp.andi x v reducesTo_S1024x16_S_d0_1 h_S_) main_v76 main_c_29
  let main_v78 : IVec S_ 1 := andi main_v73 main_v77
  let main_v79 : FVec F S16x1024 .f32 := Host.absf main_arg16
  let main_cst_30 : FVec F S_ .f32 := constant S_ .f32 0x7F800000#32
  let main_v80 : FVec F S16x1024 .f32 := broadcastInDim S16x1024 ![] bcast_S_S16x1024 main_cst_30
  let main_v81 : IVec S16x1024 1 := cmpf .olt main_v79 main_v80
  let main_c_31 : IVec S_ 1 := constantI S_ 1 1#1
  let main_v82 : IVec S_ 1 := (fun x v => Host.reduce IntOp.andi x v reducesTo_S16x1024_S_d0_1 h_S_) main_v81 main_c_31
  let main_v83 : IVec S_ 1 := andi main_v78 main_v82
  main_v83

def fn_part3 {F : FTy → Type} [FloatOps F] (main_arg11 : FVec F S1024x32 .f32) (main_arg12 : FVec F S32x1024 .f32) (main_arg13 : FVec F S1024x8 .f32) (main_arg14 : FVec F S8x1024 .f32) (main_arg15 : FVec F S1024x16 .f32) (main_arg16 : FVec F S16x1024 .f32) (main_v48 : IVec S_ 1) (main_v49 : FVec F S16x1024 .f32) (main_v50 : FVec F S16x1024 .f32) : IVec S_ 1 :=
  let main_v51 : IVec S16x1024 1 := cmpf .olt main_v49 main_v50
  let main_c_19 : IVec S_ 1 := constantI S_ 1 1#1
  let main_v52 : IVec S_ 1 := (fun x v => Host.reduce IntOp.andi x v reducesTo_S16x1024_S_d0_1 h_S_) main_v51 main_c_19
  let main_v53 : IVec S_ 1 := andi main_v48 main_v52
  let main_v54 : FVec F S1024x32 .f32 := Host.absf main_arg11
  let main_cst_20 : FVec F S_ .f32 := constant S_ .f32 0x7F800000#32
  let main_v55 : FVec F S1024x32 .f32 := broadcastInDim S1024x32 ![] bcast_S_S1024x32 main_cst_20
  let main_v56 : IVec S1024x32 1 := cmpf .olt main_v54 main_v55
  let main_c_21 : IVec S_ 1 := constantI S_ 1 1#1
  let main_v57 : IVec S_ 1 := (fun x v => Host.reduce IntOp.andi x v reducesTo_S1024x32_S_d0_1 h_S_) main_v56 main_c_21
  let main_v58 : IVec S_ 1 := andi main_v53 main_v57
  let main_v59 : FVec F S32x1024 .f32 := Host.absf main_arg12
  let main_cst_22 : FVec F S_ .f32 := constant S_ .f32 0x7F800000#32
  let main_v60 : FVec F S32x1024 .f32 := broadcastInDim S32x1024 ![] bcast_S_S32x1024 main_cst_22
  let main_v61 : IVec S32x1024 1 := cmpf .olt main_v59 main_v60
  let main_c_23 : IVec S_ 1 := constantI S_ 1 1#1
  let main_v62 : IVec S_ 1 := (fun x v => Host.reduce IntOp.andi x v reducesTo_S32x1024_S_d0_1 h_S_) main_v61 main_c_23
  let main_v63 : IVec S_ 1 := andi main_v58 main_v62
  let main_v64 : FVec F S1024x8 .f32 := Host.absf main_arg13
  let main_cst_24 : FVec F S_ .f32 := constant S_ .f32 0x7F800000#32
  let main_v65 : FVec F S1024x8 .f32 := broadcastInDim S1024x8 ![] bcast_S_S1024x8 main_cst_24
  let main_v66 : IVec S1024x8 1 := cmpf .olt main_v64 main_v65
  let main_c_25 : IVec S_ 1 := constantI S_ 1 1#1
  let main_v67 : IVec S_ 1 := (fun x v => Host.reduce IntOp.andi x v reducesTo_S1024x8_S_d0_1 h_S_) main_v66 main_c_25
  fn_part4 (F := F) main_arg14 main_arg15 main_arg16 main_v63 main_v67

def fn_part2 {F : FTy → Type} [FloatOps F] (main_arg7 : FVec F S1024x8 .f32) (main_arg8 : FVec F S8x1024 .f32) (main_arg9 : FVec F S1024x16 .f32) (main_arg10 : FVec F S16x1024 .f32) (main_arg11 : FVec F S1024x32 .f32) (main_arg12 : FVec F S32x1024 .f32) (main_arg13 : FVec F S1024x8 .f32) (main_arg14 : FVec F S8x1024 .f32) (main_arg15 : FVec F S1024x16 .f32) (main_arg16 : FVec F S16x1024 .f32) (main_v33 : IVec S_ 1) : IVec S_ 1 :=
  let main_v34 : FVec F S1024x8 .f32 := Host.absf main_arg7
  let main_cst_12 : FVec F S_ .f32 := constant S_ .f32 0x7F800000#32
  let main_v35 : FVec F S1024x8 .f32 := broadcastInDim S1024x8 ![] bcast_S_S1024x8 main_cst_12
  let main_v36 : IVec S1024x8 1 := cmpf .olt main_v34 main_v35
  let main_c_13 : IVec S_ 1 := constantI S_ 1 1#1
  let main_v37 : IVec S_ 1 := (fun x v => Host.reduce IntOp.andi x v reducesTo_S1024x8_S_d0_1 h_S_) main_v36 main_c_13
  let main_v38 : IVec S_ 1 := andi main_v33 main_v37
  let main_v39 : FVec F S8x1024 .f32 := Host.absf main_arg8
  let main_cst_14 : FVec F S_ .f32 := constant S_ .f32 0x7F800000#32
  let main_v40 : FVec F S8x1024 .f32 := broadcastInDim S8x1024 ![] bcast_S_S8x1024 main_cst_14
  let main_v41 : IVec S8x1024 1 := cmpf .olt main_v39 main_v40
  let main_c_15 : IVec S_ 1 := constantI S_ 1 1#1
  let main_v42 : IVec S_ 1 := (fun x v => Host.reduce IntOp.andi x v reducesTo_S8x1024_S_d0_1 h_S_) main_v41 main_c_15
  let main_v43 : IVec S_ 1 := andi main_v38 main_v42
  let main_v44 : FVec F S1024x16 .f32 := Host.absf main_arg9
  let main_cst_16 : FVec F S_ .f32 := constant S_ .f32 0x7F800000#32
  let main_v45 : FVec F S1024x16 .f32 := broadcastInDim S1024x16 ![] bcast_S_S1024x16 main_cst_16
  let main_v46 : IVec S1024x16 1 := cmpf .olt main_v44 main_v45
  let main_c_17 : IVec S_ 1 := constantI S_ 1 1#1
  let main_v47 : IVec S_ 1 := (fun x v => Host.reduce IntOp.andi x v reducesTo_S1024x16_S_d0_1 h_S_) main_v46 main_c_17
  let main_v48 : IVec S_ 1 := andi main_v43 main_v47
  let main_v49 : FVec F S16x1024 .f32 := Host.absf main_arg10
  let main_cst_18 : FVec F S_ .f32 := constant S_ .f32 0x7F800000#32
  let main_v50 : FVec F S16x1024 .f32 := broadcastInDim S16x1024 ![] bcast_S_S16x1024 main_cst_18
  fn_part3 (F := F) main_arg11 main_arg12 main_arg13 main_arg14 main_arg15 main_arg16 main_v48 main_v49 main_v50

def fn_part1 {F : FTy → Type} [FloatOps F] (main_arg4 : FVec F S16x1024 .f32) (main_arg5 : FVec F S1024x32 .f32) (main_arg6 : FVec F S32x1024 .f32) (main_arg7 : FVec F S1024x8 .f32) (main_arg8 : FVec F S8x1024 .f32) (main_arg9 : FVec F S1024x16 .f32) (main_arg10 : FVec F S16x1024 .f32) (main_arg11 : FVec F S1024x32 .f32) (main_arg12 : FVec F S32x1024 .f32) (main_arg13 : FVec F S1024x8 .f32) (main_arg14 : FVec F S8x1024 .f32) (main_arg15 : FVec F S1024x16 .f32) (main_arg16 : FVec F S16x1024 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16x1024 .f32 := Host.absf main_arg4
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  let main_v24 : FVec F S1024x32 .f32 := Host.absf main_arg5
  let main_cst_8 : FVec F S_ .f32 := constant S_ .f32 0x7F800000#32
  let main_v25 : FVec F S1024x32 .f32 := broadcastInDim S1024x32 ![] bcast_S_S1024x32 main_cst_8
  let main_v26 : IVec S1024x32 1 := cmpf .olt main_v24 main_v25
  let main_c_9 : IVec S_ 1 := constantI S_ 1 1#1
  let main_v27 : IVec S_ 1 := (fun x v => Host.reduce IntOp.andi x v reducesTo_S1024x32_S_d0_1 h_S_) main_v26 main_c_9
  let main_v28 : IVec S_ 1 := andi main_v23 main_v27
  let main_v29 : FVec F S32x1024 .f32 := Host.absf main_arg6
  let main_cst_10 : FVec F S_ .f32 := constant S_ .f32 0x7F800000#32
  let main_v30 : FVec F S32x1024 .f32 := broadcastInDim S32x1024 ![] bcast_S_S32x1024 main_cst_10
  let main_v31 : IVec S32x1024 1 := cmpf .olt main_v29 main_v30
  let main_c_11 : IVec S_ 1 := constantI S_ 1 1#1
  let main_v32 : IVec S_ 1 := (fun x v => Host.reduce IntOp.andi x v reducesTo_S32x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S16x2048x1024 .f32) (main_arg1 : FVec F S1024x8 .f32) (main_arg2 : FVec F S8x1024 .f32) (main_arg3 : FVec F S1024x16 .f32) (main_arg4 : FVec F S16x1024 .f32) (main_arg5 : FVec F S1024x32 .f32) (main_arg6 : FVec F S32x1024 .f32) (main_arg7 : FVec F S1024x8 .f32) (main_arg8 : FVec F S8x1024 .f32) (main_arg9 : FVec F S1024x16 .f32) (main_arg10 : FVec F S16x1024 .f32) (main_arg11 : FVec F S1024x32 .f32) (main_arg12 : FVec F S32x1024 .f32) (main_arg13 : FVec F S1024x8 .f32) (main_arg14 : FVec F S8x1024 .f32) (main_arg15 : FVec F S1024x16 .f32) (main_arg16 : FVec F S16x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S1024x16 .f32 := Host.absf main_arg3
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S16x2048x1024 : Shape := ⟨3, ![16, 2048, 1024]⟩
abbrev S1024x8 : Shape := ⟨2, ![1024, 8]⟩
abbrev S8x1024 : Shape := ⟨2, ![8, 1024]⟩
abbrev S1024x16 : Shape := ⟨2, ![1024, 16]⟩
abbrev S16x1024 : Shape := ⟨2, ![16, 1024]⟩
abbrev S1024x32 : Shape := ⟨2, ![1024, 32]⟩
abbrev S32x1024 : Shape := ⟨2, ![32, 1024]⟩
abbrev S_ : Shape := ⟨0, ![]⟩
abbrev S1x32x1024 : Shape := ⟨3, ![1, 32, 1024]⟩
abbrev S8x32x1024 : Shape := ⟨3, ![8, 32, 1024]⟩
abbrev S1x1024x32 : Shape := ⟨3, ![1, 1024, 32]⟩
abbrev S8x1024x32 : Shape := ⟨3, ![8, 1024, 32]⟩
abbrev S1x512x1024 : Shape := ⟨3, ![1, 512, 1024]⟩
abbrev S512x1024 : Shape := ⟨2, ![512, 1024]⟩
abbrev S512x32 : Shape := ⟨2, ![512, 32]⟩

abbrev nBuf : Space → Nat
  | .hbm => 108
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024x8, .f32⟩
  | .hbm, ⟨2, _⟩ => ⟨S8x1024, .f32⟩
  | .hbm, ⟨3, _⟩ => ⟨S1024x16, .f32⟩
  | .hbm, ⟨4, _⟩ => ⟨S16x1024, .f32⟩
  | .hbm, ⟨5, _⟩ => ⟨S1024x32, .f32⟩
  | .hbm, ⟨6, _⟩ => ⟨S32x1024, .f32⟩
  | .hbm, ⟨7, _⟩ => ⟨S1024x8, .f32⟩
  | .hbm, ⟨8, _⟩ => ⟨S8x1024, .f32⟩
  | .hbm, ⟨9, _⟩ => ⟨S1024x16, .f32⟩
  | .hbm, ⟨10, _⟩ => ⟨S16x1024, .f32⟩
  | .hbm, ⟨11, _⟩ => ⟨S1024x32, .f32⟩
  | .hbm, ⟨12, _⟩ => ⟨S32x1024, .f32⟩
  | .hbm, ⟨13, _⟩ => ⟨S1024x8, .f32⟩
  | .hbm, ⟨14, _⟩ => ⟨S8x1024, .f32⟩
  | .hbm, ⟨15, _⟩ => ⟨S1024x16, .f32⟩
  | .hbm, ⟨16, _⟩ => ⟨S16x1024, .f32⟩
  | .hbm, ⟨17, _⟩ => ⟨S_, .i32⟩
  | .hbm, ⟨18, _⟩ => ⟨S_, .f32⟩
  | .hbm, ⟨19, _⟩ => ⟨S32x1024, .f32⟩
  | .hbm, ⟨20, _⟩ => ⟨S_, .i32⟩
  | .hbm, ⟨21, _⟩ => ⟨S_, .f32⟩
  | .hbm, ⟨22, _⟩ => ⟨S32x1024, .f32⟩
  | .hbm, ⟨23, _⟩ => ⟨S_, .i32⟩
  | .hbm, ⟨24, _⟩ => ⟨S_, .f32⟩
  | .hbm, ⟨25, _⟩ => ⟨S32x1024, .f32⟩
  | .hbm, ⟨26, _⟩ => ⟨S_, .i32⟩
  | .hbm, ⟨27, _⟩ => ⟨S_, .f32⟩
  | .hbm, ⟨28, _⟩ => ⟨S32x1024, .f32⟩
  | .hbm, ⟨29, _⟩ => ⟨S_, .i32⟩
  | .hbm, ⟨30, _⟩ => ⟨S_, .f32⟩
  | .hbm, ⟨31, _⟩ => ⟨S32x1024, .f32⟩
  | .hbm, ⟨32, _⟩ => ⟨S_, .i32⟩
  | .hbm, ⟨33, _⟩ => ⟨S_, .f32⟩
  | .hbm, ⟨34, _⟩ => ⟨S32x1024, .f32⟩
  | .hbm, ⟨35, _⟩ => ⟨S_, .i32⟩
  | .hbm, ⟨36, _⟩ => ⟨S_, .f32⟩
  | .hbm, ⟨37, _⟩ => ⟨S32x1024, .f32⟩
  | .hbm, ⟨38, _⟩ => ⟨S_, .i32⟩
  | .hbm, ⟨39, _⟩ => ⟨S_, .f32⟩
  | .hbm, ⟨40, _⟩ => ⟨S32x1024, .f32⟩
  | .hbm, ⟨41, _⟩ => ⟨S1x32x1024, .f32⟩
  | .hbm, ⟨42, _⟩ => ⟨S1x32x1024, .f32⟩
  | .hbm, ⟨43, _⟩ => ⟨S1x32x1024, .f32⟩
  | .hbm, ⟨44, _⟩ => ⟨S1x32x1024, .f32⟩
  | .hbm, ⟨45, _⟩ => ⟨S1x32x1024, .f32⟩
  | .hbm, ⟨46, _⟩ => ⟨S1x32x1024, .f32⟩
  | .hbm, ⟨47, _⟩ => ⟨S1x32x1024, .f32⟩
  | .hbm, ⟨48, _⟩ => ⟨S1x32x1024, .f32⟩
  | .hbm, ⟨49, _⟩ => ⟨S8x32x1024, .f32⟩
  | .hbm, ⟨50, _⟩ => ⟨S_, .f32⟩
  | .hbm, ⟨51, _⟩ => ⟨S1024x8, .f32⟩
  | .hbm, ⟨52, _⟩ => ⟨S1024x8, .f32⟩
  | .hbm, ⟨53, _⟩ => ⟨S_, .i32⟩
  | .hbm, ⟨54, _⟩ => ⟨S_, .f32⟩
  | .hbm, ⟨55, _⟩ => ⟨S1024x32, .f32⟩
  | .hbm, ⟨56, _⟩ => ⟨S_, .f32⟩
  | .hbm, ⟨57, _⟩ => ⟨S1024x16, .f32⟩
  | .hbm, ⟨58, _⟩ => ⟨S1024x16, .f32⟩
  | .hbm, ⟨59, _⟩ => ⟨S_, .i32⟩
  | .hbm, ⟨60, _⟩ => ⟨S_, .f32⟩
  | .hbm, ⟨61, _⟩ => ⟨S1024x32, .f32⟩
  | .hbm, ⟨62, _⟩ => ⟨S_, .f32⟩
  | .hbm, ⟨63, _⟩ => ⟨S1024x32, .f32⟩
  | .hbm, ⟨64, _⟩ => ⟨S1024x32, .f32⟩
  | .hbm, ⟨65, _⟩ => ⟨S_, .i32⟩
  | .hbm, ⟨66, _⟩ => ⟨S_, .f32⟩
  | .hbm, ⟨67, _⟩ => ⟨S1024x32, .f32⟩
  | .hbm, ⟨68, _⟩ => ⟨S_, .f32⟩
  | .hbm, ⟨69, _⟩ => ⟨S1024x8, .f32⟩
  | .hbm, ⟨70, _⟩ => ⟨S1024x8, .f32⟩
  | .hbm, ⟨71, _⟩ => ⟨S_, .i32⟩
  | .hbm, ⟨72, _⟩ => ⟨S_, .f32⟩
  | .hbm, ⟨73, _⟩ => ⟨S1024x32, .f32⟩
  | .hbm, ⟨74, _⟩ => ⟨S_, .f32⟩
  | .hbm, ⟨75, _⟩ => ⟨S1024x16, .f32⟩
  | .hbm, ⟨76, _⟩ => ⟨S1024x16, .f32⟩
  | .hbm, ⟨77, _⟩ => ⟨S_, .i32⟩
  | .hbm, ⟨78, _⟩ => ⟨S_, .f32⟩
  | .hbm, ⟨79, _⟩ => ⟨S1024x32, .f32⟩
  | .hbm, ⟨80, _⟩ => ⟨S_, .f32⟩
  | .hbm, ⟨81, _⟩ => ⟨S1024x32, .f32⟩
  | .hbm, ⟨82, _⟩ => ⟨S1024x32, .f32⟩
  | .hbm, ⟨83, _⟩ => ⟨S_, .i32⟩
  | .hbm, ⟨84, _⟩ => ⟨S_, .f32⟩
  | .hbm, ⟨85, _⟩ => ⟨S1024x32, .f32⟩
  | .hbm, ⟨86, _⟩ => ⟨S_, .f32⟩
  | .hbm, ⟨87, _⟩ => ⟨S1024x8, .f32⟩
  | .hbm, ⟨88, _⟩ => ⟨S1024x8, .f32⟩
  | .hbm, ⟨89, _⟩ => ⟨S_, .i32⟩
  | .hbm, ⟨90, _⟩ => ⟨S_, .f32⟩
  | .hbm, ⟨91, _⟩ => ⟨S1024x32, .f32⟩
  | .hbm, ⟨92, _⟩ => ⟨S_, .f32⟩
  | .hbm, ⟨93, _⟩ => ⟨S1024x16, .f32⟩
  | .hbm, ⟨94, _⟩ => ⟨S1024x16, .f32⟩
  | .hbm, ⟨95, _⟩ => ⟨S_, .i32⟩
  | .hbm, ⟨96, _⟩ => ⟨S_, .f32⟩
  | .hbm, ⟨97, _⟩ => ⟨S1024x32, .f32⟩
  | .hbm, ⟨98, _⟩ => ⟨S1x1024x32, .f32⟩
  | .hbm, ⟨99, _⟩ => ⟨S1x1024x32, .f32⟩
  | .hbm, ⟨100, _⟩ => ⟨S1x1024x32, .f32⟩
  | .hbm, ⟨101, _⟩ => ⟨S1x1024x32, .f32⟩
  | .hbm, ⟨102, _⟩ => ⟨S1x1024x32, .f32⟩
  | .hbm, ⟨103, _⟩ => ⟨S1x1024x32, .f32⟩
  | .hbm, ⟨104, _⟩ => ⟨S1x1024x32, .f32⟩
  | .hbm, ⟨105, _⟩ => ⟨S1x1024x32, .f32⟩
  | .hbm, ⟨106, _⟩ => ⟨S8x1024x32, .f32⟩
  | .hbm, ⟨107, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x1024x32, .f32⟩
  | .local _ .vmem, ⟨5, _⟩ => ⟨S1x1024x32, .f32⟩
  | .local _ .vmem, ⟨6, _⟩ => ⟨S1x512x1024, .f32⟩
  | .local _ .vmem, ⟨7, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_call0_v0 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_v1 : Ref sig .tc := ⟨.hbm, 22, rfl⟩
abbrev main_c_1 : Ref sig .tc := ⟨.hbm, 23, rfl⟩
abbrev main_call2_v0 : Ref sig .tc := ⟨.hbm, 24, rfl⟩
abbrev main_v2 : Ref sig .tc := ⟨.hbm, 25, rfl⟩
abbrev main_c_2 : Ref sig .tc := ⟨.hbm, 26, rfl⟩
abbrev main_call3_v0 : Ref sig .tc := ⟨.hbm, 27, rfl⟩
abbrev main_v3 : Ref sig .tc := ⟨.hbm, 28, rfl⟩
abbrev main_c_3 : Ref sig .tc := ⟨.hbm, 29, rfl⟩
abbrev main_call4_v0 : Ref sig .tc := ⟨.hbm, 30, rfl⟩
abbrev main_v4 : Ref sig .tc := ⟨.hbm, 31, rfl⟩
abbrev main_c_4 : Ref sig .tc := ⟨.hbm, 32, rfl⟩
abbrev main_call5_v0 : Ref sig .tc := ⟨.hbm, 33, rfl⟩
abbrev main_v5 : Ref sig .tc := ⟨.hbm, 34, rfl⟩
abbrev main_c_5 : Ref sig .tc := ⟨.hbm, 35, rfl⟩
abbrev main_call6_v0 : Ref sig .tc := ⟨.hbm, 36, rfl⟩
abbrev main_v6 : Ref sig .tc := ⟨.hbm, 37, rfl⟩
abbrev main_c_6 : Ref sig .tc := ⟨.hbm, 38, rfl⟩
abbrev main_call7_v0 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst : Ref sig .tc := ⟨.hbm, 50, rfl⟩
abbrev main_v17 : Ref sig .tc := ⟨.hbm, 51, rfl⟩
abbrev main_v18 : Ref sig .tc := ⟨.hbm, 52, rfl⟩
abbrev main_c_7 : Ref sig .tc := ⟨.hbm, 53, rfl⟩
abbrev main_call8_v0 : Ref sig .tc := ⟨.hbm, 54, rfl⟩
abbrev main_v19 : Ref sig .tc := ⟨.hbm, 55, rfl⟩
abbrev main_cst_8 : Ref sig .tc := ⟨.hbm, 56, rfl⟩
abbrev main_v20 : Ref sig .tc := ⟨.hbm, 57, rfl⟩
abbrev main_v21 : Ref sig .tc := ⟨.hbm, 58, rfl⟩
abbrev main_c_9 : Ref sig .tc := ⟨.hbm, 59, rfl⟩
abbrev main_call9_v0 : Ref sig .tc := ⟨.hbm, 60, rfl⟩
abbrev main_v22 : Ref sig .tc := ⟨.hbm, 61, rfl⟩
abbrev main_cst_10 : Ref sig .tc := ⟨.hbm, 62, rfl⟩
abbrev main_v23 : Ref sig .tc := ⟨.hbm, 63, rfl⟩
abbrev main_v24 : Ref sig .tc := ⟨.hbm, 64, rfl⟩
abbrev main_c_11 : Ref sig .tc := ⟨.hbm, 65, rfl⟩
abbrev main_call10_v0 : Ref sig .tc := ⟨.hbm, 66, rfl⟩
abbrev main_v25 : Ref sig .tc := ⟨.hbm, 67, rfl⟩
abbrev main_cst_12 : Ref sig .tc := ⟨.hbm, 68, rfl⟩
abbrev main_v26 : Ref sig .tc := ⟨.hbm, 69, rfl⟩
abbrev main_v27 : Ref sig .tc := ⟨.hbm, 70, rfl⟩
abbrev main_c_13 : Ref sig .tc := ⟨.hbm, 71, rfl⟩
abbrev main_call11_v0 : Ref sig .tc := ⟨.hbm, 72, rfl⟩
abbrev main_v28 : Ref sig .tc := ⟨.hbm, 73, rfl⟩
abbrev main_cst_14 : Ref sig .tc := ⟨.hbm, 74, rfl⟩
abbrev main_v29 : Ref sig .tc := ⟨.hbm, 75, rfl⟩
abbrev main_v30 : Ref sig .tc := ⟨.hbm, 76, rfl⟩
abbrev main_c_15 : Ref sig .tc := ⟨.hbm, 77, rfl⟩
abbrev main_call12_v0 : Ref sig .tc := ⟨.hbm, 78, rfl⟩
abbrev main_v31 : Ref sig .tc := ⟨.hbm, 79, rfl⟩
abbrev main_cst_16 : Ref sig .tc := ⟨.hbm, 80, rfl⟩
abbrev main_v32 : Ref sig .tc := ⟨.hbm, 81, rfl⟩
abbrev main_v33 : Ref sig .tc := ⟨.hbm, 82, rfl⟩
abbrev main_c_17 : Ref sig .tc := ⟨.hbm, 83, rfl⟩
abbrev main_call13_v0 : Ref sig .tc := ⟨.hbm, 84, rfl⟩
abbrev main_v34 : Ref sig .tc := ⟨.hbm, 85, rfl⟩
abbrev main_cst_18 : Ref sig .tc := ⟨.hbm, 86, rfl⟩
abbrev main_v35 : Ref sig .tc := ⟨.hbm, 87, rfl⟩
abbrev main_v36 : Ref sig .tc := ⟨.hbm, 88, rfl⟩
abbrev main_c_19 : Ref sig .tc := ⟨.hbm, 89, rfl⟩
abbrev main_call14_v0 : Ref sig .tc := ⟨.hbm, 90, rfl⟩
abbrev main_v37 : Ref sig .tc := ⟨.hbm, 91, rfl⟩
abbrev main_cst_20 : Ref sig .tc := ⟨.hbm, 92, rfl⟩
abbrev main_v38 : Ref sig .tc := ⟨.hbm, 93, rfl⟩
abbrev main_v39 : Ref sig .tc := ⟨.hbm, 94, rfl⟩
abbrev main_c_21 : Ref sig .tc := ⟨.hbm, 95, rfl⟩
abbrev main_call15_v0 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S8x1024_S32x1024_0240_000 : S8x1024.Pads (![0, 0] : Fin 2 → Nat) ![24, 0] ![0, 0] S32x1024
  h_S_ : 0 < S_.numel
  pads_S16x1024_S32x1024_0160_000 : S16x1024.Pads (![0, 0] : Fin 2 → Nat) ![16, 0] ![0, 0] S32x1024
  pads_S32x1024_S32x1024_000_000 : S32x1024.Pads (![0, 0] : Fin 2 → Nat) ![0, 0] ![0, 0] S32x1024
  bcast_S32x1024_S1x32x1024_1_2 : S32x1024.BroadcastsInDim S1x32x1024 (![1, 2] : Fin 2 → Fin S1x32x1024.rank)
  concatenates_S1x32x1024_S1x32x1024_S1x32x1024_S1x32x1024_S1x32x1024_S1x32x1024_S1x32x1024_S1x32x1024_S8x32x1024_d0 : Shape.Concatenates [S1x32x1024, S1x32x1024, S1x32x1024, S1x32x1024, S1x32x1024, S1x32x1024, S1x32x1024, S1x32x1024] S8x32x1024 0
  bcast_S_S1024x8 : S_.BroadcastsInDim S1024x8 (![] : Fin 0 → Fin S1024x8.rank)
  pads_S1024x8_S1024x32_000_0240 : S1024x8.Pads (![0, 0] : Fin 2 → Nat) ![0, 24] ![0, 0] S1024x32
  bcast_S_S1024x16 : S_.BroadcastsInDim S1024x16 (![] : Fin 0 → Fin S1024x16.rank)
  pads_S1024x16_S1024x32_000_0160 : S1024x16.Pads (![0, 0] : Fin 2 → Nat) ![0, 16] ![0, 0] S1024x32
  bcast_S_S1024x32 : S_.BroadcastsInDim S1024x32 (![] : Fin 0 → Fin S1024x32.rank)
  pads_S1024x32_S1024x32_000_000 : S1024x32.Pads (![0, 0] : Fin 2 → Nat) ![0, 0] ![0, 0] S1024x32
  bcast_S1024x32_S1x1024x32_1_2 : S1024x32.BroadcastsInDim S1x1024x32 (![1, 2] : Fin 2 → Fin S1x1024x32.rank)
  concatenates_S1x1024x32_S1x1024x32_S1x1024x32_S1x1024x32_S1x1024x32_S1x1024x32_S1x1024x32_S1x1024x32_S8x1024x32_d0 : Shape.Concatenates [S1x1024x32, S1x1024x32, S1x1024x32, S1x1024x32, S1x1024x32, S1x1024x32, S1x1024x32, S1x1024x32] S8x1024x32 0
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S512x1024_S1x512x1024 : S512x1024.ShapeCasts S1x512x1024
  dot_S512x1024_S32x1024_S512x32_1_1_0_0_n_n_wf : DotDims.WF S512x1024 S32x1024 S512x32 [1] [1] [0] [0] [] []
  dot_S512x32_S1024x32_S512x1024_1_1_0_0_n_n_wf : DotDims.WF S512x32 S1024x32 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .f32 = 32 ∨ (Rect.block (s := S16x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x1024.size a ≤ S8x32x1024.size a
  hwx0_1 : ∀ i : grid0.Coords, EltTy.bits .f32 = 32 ∨ (Rect.block (s := S8x32x1024) S1x32x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x32.size a ≤ S8x1024x32.size a
  hwx0_2 : ∀ i : grid0.Coords, EltTy.bits .f32 = 32 ∨ (Rect.block (s := S8x1024x32) S1x1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x2048x1024.size a
  hwx0_3 : ∀ i : grid0.Coords, EltTy.bits .f32 = 32 ∨ (Rect.block (s := S16x2048x1024) S1x512x1024.size (cc0_transform_3 i) (hinb0_3 i)).WholeWords (EltTy.packing .f32)

variable [Facts₀]

def dot_S512x1024_S32x1024_S512x32_1_1_0_0_n_n : DotDims S512x1024 S32x1024 S512x32 where
  lhsContracting := [1]
  rhsContracting := [1]
  lhsNonContracting := [0]
  rhsNonContracting := [0]
  lhsBatch := []
  rhsBatch := []
  wf := dot_S512x1024_S32x1024_S512x32_1_1_0_0_n_n_wf
def dot_S512x32_S1024x32_S512x1024_1_1_0_0_n_n : DotDims S512x32 S1024x32 S512x1024 where
  lhsContracting := [1]
  rhsContracting := [1]
  lhsNonContracting := [0]
  rhsNonContracting := [0]
  lhsBatch := []
  rhsBatch := []
  wf := dot_S512x32_S1024x32_S512x1024_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1x1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S1024x8 : Shape := ⟨2, ![1024, 8]⟩
abbrev S8x1024 : Shape := ⟨2, ![8, 1024]⟩
abbrev S1024x16 : Shape := ⟨2, ![1024, 16]⟩
abbrev S16x1024 : Shape := ⟨2, ![16, 1024]⟩
abbrev S1024x32 : Shape := ⟨2, ![1024, 32]⟩
abbrev S32x1024 : Shape := ⟨2, ![32, 1024]⟩
abbrev S16 : Shape := ⟨1, ![16]⟩
abbrev S_ : Shape := ⟨0, ![]⟩
abbrev S16x2048x8 : Shape := ⟨3, ![16, 2048, 8]⟩
abbrev S16x1x1 : Shape := ⟨3, ![16, 1, 1]⟩
abbrev S16x2048x16 : Shape := ⟨3, ![16, 2048, 16]⟩
abbrev S16x2048x32 : Shape := ⟨3, ![16, 2048, 32]⟩

abbrev nBuf : Space → Nat
  | .hbm => 108
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x8, .f32⟩
  | .hbm, ⟨2, _⟩ => ⟨S8x1024, .f32⟩
  | .hbm, ⟨3, _⟩ => ⟨S1024x16, .f32⟩
  | .hbm, ⟨4, _⟩ => ⟨S16x1024, .f32⟩
  | .hbm, ⟨5, _⟩ => ⟨S1024x32, .f32⟩
  | .hbm, ⟨6, _⟩ => ⟨S32x1024, .f32⟩
  | .hbm, ⟨7, _⟩ => ⟨S1024x8, .f32⟩
  | .hbm, ⟨8, _⟩ => ⟨S8x1024, .f32⟩
  | .hbm, ⟨9, _⟩ => ⟨S1024x16, .f32⟩
  | .hbm, ⟨10, _⟩ => ⟨S16x1024, .f32⟩
  | .hbm, ⟨11, _⟩ => ⟨S1024x32, .f32⟩
  | .hbm, ⟨12, _⟩ => ⟨S32x1024, .f32⟩
  | .hbm, ⟨13, _⟩ => ⟨S1024x8, .f32⟩
  | .hbm, ⟨14, _⟩ => ⟨S8x1024, .f32⟩
  | .hbm, ⟨15, _⟩ => ⟨S1024x16, .f32⟩
  | .hbm, ⟨16, _⟩ => ⟨S16x1024, .f32⟩
  | .hbm, ⟨17, _⟩ => ⟨S16, .i32⟩
  | .hbm, ⟨18, _⟩ => ⟨S_, .f32⟩
  | .hbm, ⟨19, _⟩ => ⟨S16x2048x1024, .f32⟩
  | .hbm, ⟨20, _⟩ => ⟨S16x2048x8, .f32⟩
  | .hbm, ⟨21, _⟩ => ⟨S16x2048x1024, .f32⟩
  | .hbm, ⟨22, _⟩ => ⟨S_, .f32⟩
  | .hbm, ⟨23, _⟩ => ⟨S16x2048x1024, .f32⟩
  | .hbm, ⟨24, _⟩ => ⟨S16x2048x1024, .f32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S16x1x1, .i1⟩
  | .hbm, ⟨29, _⟩ => ⟨S16x2048x1024, .i1⟩
  | .hbm, ⟨30, _⟩ => ⟨S16x2048x1024, .f32⟩
  | .hbm, ⟨31, _⟩ => ⟨S16x2048x16, .f32⟩
  | .hbm, ⟨32, _⟩ => ⟨S16x2048x1024, .f32⟩
  | .hbm, ⟨33, _⟩ => ⟨S_, .f32⟩
  | .hbm, ⟨34, _⟩ => ⟨S16x2048x1024, .f32⟩
  | .hbm, ⟨35, _⟩ => ⟨S16x2048x1024, .f32⟩
  | .hbm, ⟨36, _⟩ => ⟨S_, .i32⟩
  | .hbm, ⟨37, _⟩ => ⟨S16, .i32⟩
  | .hbm, ⟨38, _⟩ => ⟨S16, .i1⟩
  | .hbm, ⟨39, _⟩ => ⟨S16x1x1, .i1⟩
  | .hbm, ⟨40, _⟩ => ⟨S16x2048x1024, .i1⟩
  | .hbm, ⟨41, _⟩ => ⟨S16x2048x1024, .f32⟩
  | .hbm, ⟨42, _⟩ => ⟨S16x2048x32, .f32⟩
  | .hbm, ⟨43, _⟩ => ⟨S16x2048x1024, .f32⟩
  | .hbm, ⟨44, _⟩ => ⟨S_, .f32⟩
  | .hbm, ⟨45, _⟩ => ⟨S16x2048x1024, .f32⟩
  | .hbm, ⟨46, _⟩ => ⟨S16x2048x1024, .f32⟩
  | .hbm, ⟨47, _⟩ => ⟨S_, .i32⟩
  | .hbm, ⟨48, _⟩ => ⟨S16, .i32⟩
  | .hbm, ⟨49, _⟩ => ⟨S16, .i1⟩
  | .hbm, ⟨50, _⟩ => ⟨S16x1x1, .i1⟩
  | .hbm, ⟨51, _⟩ => ⟨S16x2048x1024, .i1⟩
  | .hbm, ⟨52, _⟩ => ⟨S16x2048x1024, .f32⟩
  | .hbm, ⟨53, _⟩ => ⟨S16x2048x8, .f32⟩
  | .hbm, ⟨54, _⟩ => ⟨S16x2048x1024, .f32⟩
  | .hbm, ⟨55, _⟩ => ⟨S_, .f32⟩
  | .hbm, ⟨56, _⟩ => ⟨S16x2048x1024, .f32⟩
  | .hbm, ⟨57, _⟩ => ⟨S16x2048x1024, .f32⟩
  | .hbm, ⟨58, _⟩ => ⟨S_, .i32⟩
  | .hbm, ⟨59, _⟩ => ⟨S16, .i32⟩
  | .hbm, ⟨60, _⟩ => ⟨S16, .i1⟩
  | .hbm, ⟨61, _⟩ => ⟨S16x1x1, .i1⟩
  | .hbm, ⟨62, _⟩ => ⟨S16x2048x1024, .i1⟩
  | .hbm, ⟨63, _⟩ => ⟨S16x2048x1024, .f32⟩
  | .hbm, ⟨64, _⟩ => ⟨S16x2048x16, .f32⟩
  | .hbm, ⟨65, _⟩ => ⟨S16x2048x1024, .f32⟩
  | .hbm, ⟨66, _⟩ => ⟨S_, .f32⟩
  | .hbm, ⟨67, _⟩ => ⟨S16x2048x1024, .f32⟩
  | .hbm, ⟨68, _⟩ => ⟨S16x2048x1024, .f32⟩
  | .hbm, ⟨69, _⟩ => ⟨S_, .i32⟩
  | .hbm, ⟨70, _⟩ => ⟨S16, .i32⟩
  | .hbm, ⟨71, _⟩ => ⟨S16, .i1⟩
  | .hbm, ⟨72, _⟩ => ⟨S16x1x1, .i1⟩
  | .hbm, ⟨73, _⟩ => ⟨S16x2048x1024, .i1⟩
  | .hbm, ⟨74, _⟩ => ⟨S16x2048x1024, .f32⟩
  | .hbm, ⟨75, _⟩ => ⟨S16x2048x32, .f32⟩
  | .hbm, ⟨76, _⟩ => ⟨S16x2048x1024, .f32⟩
  | .hbm, ⟨77, _⟩ => ⟨S_, .f32⟩
  | .hbm, ⟨78, _⟩ => ⟨S16x2048x1024, .f32⟩
  | .hbm, ⟨79, _⟩ => ⟨S16x2048x1024, .f32⟩
  | .hbm, ⟨80, _⟩ => ⟨S_, .i32⟩
  | .hbm, ⟨81, _⟩ => ⟨S16, .i32⟩
  | .hbm, ⟨82, _⟩ => ⟨S16, .i1⟩
  | .hbm, ⟨83, _⟩ => ⟨S16x1x1, .i1⟩
  | .hbm, ⟨84, _⟩ => ⟨S16x2048x1024, .i1⟩
  | .hbm, ⟨85, _⟩ => ⟨S16x2048x1024, .f32⟩
  | .hbm, ⟨86, _⟩ => ⟨S16x2048x8, .f32⟩
  | .hbm, ⟨87, _⟩ => ⟨S16x2048x1024, .f32⟩
  | .hbm, ⟨88, _⟩ => ⟨S_, .f32⟩
  | .hbm, ⟨89, _⟩ => ⟨S16x2048x1024, .f32⟩
  | .hbm, ⟨90, _⟩ => ⟨S16x2048x1024, .f32⟩
  | .hbm, ⟨91, _⟩ => ⟨S_, .i32⟩
  | .hbm, ⟨92, _⟩ => ⟨S16, .i32⟩
  | .hbm, ⟨93, _⟩ => ⟨S16, .i1⟩
  | .hbm, ⟨94, _⟩ => ⟨S16x1x1, .i1⟩
  | .hbm, ⟨95, _⟩ => ⟨S16x2048x1024, .i1⟩
  | .hbm, ⟨96, _⟩ => ⟨S16x2048x1024, .f32⟩
  | .hbm, ⟨97, _⟩ => ⟨S16x2048x16, .f32⟩
  | .hbm, ⟨98, _⟩ => ⟨S16x2048x1024, .f32⟩
  | .hbm, ⟨99, _⟩ => ⟨S_, .f32⟩
  | .hbm, ⟨100, _⟩ => ⟨S16x2048x1024, .f32⟩
  | .hbm, ⟨101, _⟩ => ⟨S16x2048x1024, .f32⟩
  | .hbm, ⟨102, _⟩ => ⟨S_, .i32⟩
  | .hbm, ⟨103, _⟩ => ⟨S16, .i32⟩
  | .hbm, ⟨104, _⟩ => ⟨S16, .i1⟩
  | .hbm, ⟨105, _⟩ => ⟨S16x1x1, .i1⟩
  | .hbm, ⟨106, _⟩ => ⟨S16x2048x1024, .i1⟩
  | .hbm, ⟨107, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call0_v0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_c_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_call1_v0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_call2_v0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_6 : Ref sig .tc := ⟨.hbm, 55, rfl⟩
abbrev main_v27 : Ref sig .tc := ⟨.hbm, 56, rfl⟩
abbrev main_v28 : Ref sig .tc := ⟨.hbm, 57, rfl⟩
abbrev main_c_7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_call3_v0 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_8 : Ref sig .tc := ⟨.hbm, 66, rfl⟩
abbrev main_v35 : Ref sig .tc := ⟨.hbm, 67, rfl⟩
abbrev main_v36 : Ref sig .tc := ⟨.hbm, 68, rfl⟩
abbrev main_c_9 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_call4_v0 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_10 : Ref sig .tc := ⟨.hbm, 77, rfl⟩
abbrev main_v43 : Ref sig .tc := ⟨.hbm, 78, rfl⟩
abbrev main_v44 : Ref sig .tc := ⟨.hbm, 79, rfl⟩
abbrev main_c_11 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_call5_v0 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_12 : Ref sig .tc := ⟨.hbm, 88, rfl⟩
abbrev main_v51 : Ref sig .tc := ⟨.hbm, 89, rfl⟩
abbrev main_v52 : Ref sig .tc := ⟨.hbm, 90, rfl⟩
abbrev main_c_13 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_call6_v0 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_14 : Ref sig .tc := ⟨.hbm, 99, rfl⟩
abbrev main_v59 : Ref sig .tc := ⟨.hbm, 100, rfl⟩
abbrev main_v60 : Ref sig .tc := ⟨.hbm, 101, rfl⟩
abbrev main_c_15 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_call7_v0 : Ref sig .tc := ⟨.hbm, 106, rfl⟩
abbrev main_v64 : Ref sig .tc := ⟨.hbm, 107, rfl⟩

abbrev nD : Nat := 1
abbrev τ : Topo := Topo.v7x

variable {F : FTy → Type} [FloatOps F]

class Facts₀ : Prop where
  bcast_S_S16x2048x1024 : S_.BroadcastsInDim S16x2048x1024 (![] : Fin 0 → Fin S16x2048x1024.rank)
  bcast_S_S16 : S_.BroadcastsInDim S16 (![] : Fin 0 → Fin S16.rank)
  bcast_S16_S16x1x1_0 : S16.BroadcastsInDim S16x1x1 (![0] : Fin 1 → Fin S16x1x1.rank)
  bcast_S16x1x1_S16x2048x1024_0_1_2 : S16x1x1.BroadcastsInDim S16x2048x1024 (![0, 1, 2] : Fin 3 → Fin S16x2048x1024.rank)
  dot_S16x2048x1024_S8x1024_S16x2048x8_2_1_01_0_n_n_wf : DotDims.WF S16x2048x1024 S8x1024 S16x2048x8 [2] [1] [0, 1] [0] [] []
  dot_S16x2048x8_S1024x8_S16x2048x1024_2_1_01_0_n_n_wf : DotDims.WF S16x2048x8 S1024x8 S16x2048x1024 [2] [1] [0, 1] [0] [] []
  dot_S16x2048x1024_S16x1024_S16x2048x16_2_1_01_0_n_n_wf : DotDims.WF S16x2048x1024 S16x1024 S16x2048x16 [2] [1] [0, 1] [0] [] []
  dot_S16x2048x16_S1024x16_S16x2048x1024_2_1_01_0_n_n_wf : DotDims.WF S16x2048x16 S1024x16 S16x2048x1024 [2] [1] [0, 1] [0] [] []
  dot_S16x2048x1024_S32x1024_S16x2048x32_2_1_01_0_n_n_wf : DotDims.WF S16x2048x1024 S32x1024 S16x2048x32 [2] [1] [0, 1] [0] [] []
  dot_S16x2048x32_S1024x32_S16x2048x1024_2_1_01_0_n_n_wf : DotDims.WF S16x2048x32 S1024x32 S16x2048x1024 [2] [1] [0, 1] [0] [] []

variable [Facts₀]

def dot_S16x2048x1024_S8x1024_S16x2048x8_2_1_01_0_n_n : DotDims S16x2048x1024 S8x1024 S16x2048x8 where
  lhsContracting := [2]
  rhsContracting := [1]
  lhsNonContracting := [0, 1]
  rhsNonContracting := [0]
  lhsBatch := []
  rhsBatch := []
  wf := dot_S16x2048x1024_S8x1024_S16x2048x8_2_1_01_0_n_n_wf
def dot_S16x2048x8_S1024x8_S16x2048x1024_2_1_01_0_n_n : DotDims S16x2048x8 S1024x8 S16x2048x1024 where
  lhsContracting := [2]
  rhsContracting := [1]
  lhsNonContracting := [0, 1]
  rhsNonContracting := [0]
  lhsBatch := []
  rhsBatch := []
  wf := dot_S16x2048x8_S1024x8_S16x2048x1024_2_1_01_0_n_n_wf
def dot_S16x2048x1024_S16x1024_S16x2048x16_2_1_01_0_n_n : DotDims S16x2048x1024 S16x1024 S16x2048x16 where
  lhsContracting := [2]
  rhsContracting := [1]
  lhsNonContracting := [0, 1]
  rhsNonContracting := [0]
  lhsBatch := []
  rhsBatch := []
  wf := dot_S16x2048x1024_S16x1024_S16x2048x16_2_1_01_0_n_n_wf
def dot_S16x2048x16_S1024x16_S16x2048x1024_2_1_01_0_n_n : DotDims S16x2048x16 S1024x16 S16x2048x1024 where
  lhsContracting := [2]
  rhsContracting := [1]
  lhsNonContracting := [0, 1]
  rhsNonContracting := [0]
  lhsBatch := []
  rhsBatch := []
  wf := dot_S16x2048x16_S1024x16_S16x2048x1024_2_1_01_0_n_n_wf
def dot_S16x2048x1024_S32x1024_S16x2048x32_2_1_01_0_n_n : DotDims S16x2048x1024 S32x1024 S16x2048x32 where
  lhsContracting := [2]
  rhsContracting := [1]
  lhsNonContracting := [0, 1]
  rhsNonContracting := [0]
  lhsBatch := []
  rhsBatch := []
  wf := dot_S16x2048x1024_S32x1024_S16x2048x32_2_1_01_0_n_n_wf
def dot_S16x2048x32_S1024x32_S16x2048x1024_2_1_01_0_n_n : DotDims S16x2048x32 S1024x32 S16x2048x1024 where
  lhsContracting := [2]
  rhsContracting := [1]
  lhsNonContracting := [0, 1]
  rhsNonContracting := [0]
  lhsBatch := []
  rhsBatch := []
  wf := dot_S16x2048x32_S1024x32_S16x2048x1024_2_1_01_0_n_n_wf

class Facts : Prop extends Facts₀ where

variable [Facts]
-- ==== Proof.KFrame.lean ====
/-
  The frame of the adapter-routing kernel: every weakly fair execution of @main terminates without a fault and leaves
  the seventeen argument arrays as launched; and, for the value claim, what the result array holds afterwards.

  @main is a straight line of host operations (each adapter's B zero-padded to 32 rows and stacked into an
  [8, 32, 1024] array; each adapter's A multiplied by its scale, zero-padded to 32 columns and stacked into an
  [8, 1024, 32] array) followed by ONE pipelined region over the grid (16, 4). At grid point (b, s) the body reads
  the x block [b, 512 s .. 512 s + 511, :], the stacked-B block b mod 8 and the stacked-A block b mod 8, and stores
  (x_blk · Bᵀ) · Aᵀ over the whole output block (b, s). The body also loads its output buffer before storing; the
  loaded value is not used, so the buffer may hold anything when the body starts.

  The proof data names, per point, each input buffer at its block and the output buffer at the one store's value;
  the host prefix is run by the library's rule for a sequence of operation lists, the region by the frame run.
-/
import proofs.«144235_g44933947850968_cont_8to1_c_774_6_alg».proof.Proof.Gen.Kernel.Launch
import proofs.«144235_g44933947850968_cont_8to1_c_774_6_alg».proof.Proof.Gen.Kernel.Skeleton
import proofs.«144235_g44933947850968_cont_8to1_c_774_6_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- All the host operation lists of @main before the region, in order. -/
abbrev prefixOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

/-- Core `c`'s TensorCore buffers when the region is entered: the launch contents after the host prefix. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor

/-- @main up to the region: the lists of host operations one after the other, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixOps (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry array and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry array and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry array and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: x is a staged input, so its array ends at its entry contents; the other sixteen
    arguments are staged by no window, so the run's post keeps them; and the host prefix writes none of the seventeen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) h

/-! ## The body's accesses, and what it leaves in the output buffer -/

abbrev r0_0 : Rect S1x512x1024 := Rect.unit (s := S1x512x1024) ![0, 0, 0] S1x512x1024.size inb_S1x512x1024_S1x512x1024_0_0_0
abbrev r0_1 : Rect S1x32x1024 := Rect.unit (s := S1x32x1024) ![0, 0, 0] S1x32x1024.size inb_S1x32x1024_S1x32x1024_0_0_0
abbrev r0_2 : Rect S1x1024x32 := Rect.unit (s := S1x1024x32) ![0, 0, 0] S1x1024x32.size inb_S1x1024x32_S1x1024x32_0_0_0

/-- The output buffer after the body, from the three input blocks: its one store, of the two chained products. -/
def out0_3 (x0 : Vec F S1x512x1024 .f32) (x1 : Vec F S1x32x1024 .f32) (x2 : Vec F S1x1024x32 .f32) : Vec F S1x512x1024 .f32 :=
  View.canon [⟨r0_0, k0_pay1 (View.ld x0 r0_0) (View.ld x1 r0_1) (View.ld x2 r0_2)⟩]

/-- The one store covers the whole buffer. -/
theorem cover0_3 (p0 : Vec F S1x512x1024 .f32) (y : S1x512x1024.Idx) :
    ∃ pc ∈ ([⟨r0_0, p0⟩] : List (View.Piece (Elt F) S1x512x1024 .f32)), y ∈ pc.1.set :=
  View.cover_of_tiled [⟨r0_0, p0⟩] S1x512x1024.size (by rfl) y

/-! ## The body's triple -/

set_option maxHeartbeats 1000000 in
/-- The kernel body on whole staging buffers, the inputs' at contents `xW` and the output's at anything, runs to the
    continuation holding the inputs' as they were and the output's at `out0_3` of the inputs'. -/
theorem sound_kernel (c : Dev nD) (E : Set ℕ) (i : grid0.Coords) (arg2 : Memref sig .tc .vmem S1x512x1024 .f32) (harg2 : arg2.IsWhole) (arg3 : Memref sig .tc .vmem S1x32x1024 .f32) (harg3 : arg3.IsWhole) (arg4 : Memref sig .tc .vmem S1x1024x32 .f32) (harg4 : arg4.IsWhole) (arg5 : Memref sig .tc .vmem S1x512x1024 .f32) (harg5 : arg5.IsWhole)
    (x0 : Vec F S1x512x1024 .f32) (x1 : Vec F S1x32x1024 .f32) (x2 : Vec F S1x1024x32 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__lora_kernel i arg2 harg2 arg3 harg3 arg4 harg4 arg5 harg5) K := by
  simp only [cc0__lora_kernel_eq_skeleton]; unfold cc0__lora_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the one pipeline on core `c`: the arrays as the region finds them; after the body at point
    `t` each input's buffer at its block and the output's at `out0_3` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    the core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state has
    every array of the pipeline at what the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: termination without a fault, and the seventeen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Gen

end
-- ==== Proof.KIFrame.lean ====
/-
  The frame of the adapter-routing kernel: every weakly fair execution of @main terminates without a fault and leaves
  the seventeen argument arrays as launched; and, for the value claim, what the result array holds afterwards.

  @main is a straight line of host operations (each adapter's B zero-padded to 32 rows and stacked into an
  [8, 32, 1024] array; each adapter's A multiplied by its scale, zero-padded to 32 columns and stacked into an
  [8, 1024, 32] array) followed by ONE pipelined region over the grid (16, 4). At grid point (b, s) the body reads
  the x block [b, 512 s .. 512 s + 511, :], the stacked-B block b mod 8 and the stacked-A block b mod 8, and stores
  (x_blk · Bᵀ) · Aᵀ over the whole output block (b, s). The body also loads its output buffer before storing; the
  loaded value is not used, so the buffer may hold anything when the body starts.

  The proof data names, per point, each input buffer at its block and the output buffer at the one store's value;
  the host prefix is run by the library's rule for a sequence of operation lists, the region by the frame run.
-/
import proofs.«144235_g44933947850968_cont_8to1_c_774_6_alg».proof.Proof.Gen.KernelIdeal.Launch
import proofs.«144235_g44933947850968_cont_8to1_c_774_6_alg».proof.Proof.Gen.KernelIdeal.Skeleton
import proofs.«144235_g44933947850968_cont_8to1_c_774_6_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- All the host operation lists of @main before the region, in order. -/
abbrev prefixOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

/-- Core `c`'s TensorCore buffers when the region is entered: the launch contents after the host prefix. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor

/-- @main up to the region: the lists of host operations one after the other, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixOps (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.TRef.unary, StableHlo.TRef.binary, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry array and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry array and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry array and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: x is a staged input, so its array ends at its entry contents; the other sixteen
    arguments are staged by no window, so the run's post keeps them; and the host prefix writes none of the seventeen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) h

/-! ## The body's accesses, and what it leaves in the output buffer -/

abbrev r0_0 : Rect S1x512x1024 := Rect.unit (s := S1x512x1024) ![0, 0, 0] S1x512x1024.size inb_S1x512x1024_S1x512x1024_0_0_0
abbrev r0_1 : Rect S1x32x1024 := Rect.unit (s := S1x32x1024) ![0, 0, 0] S1x32x1024.size inb_S1x32x1024_S1x32x1024_0_0_0
abbrev r0_2 : Rect S1x1024x32 := Rect.unit (s := S1x1024x32) ![0, 0, 0] S1x1024x32.size inb_S1x1024x32_S1x1024x32_0_0_0

/-- The output buffer after the body, from the three input blocks: its one store, of the two chained products. -/
def out0_3 (x0 : Vec F S1x512x1024 .f32) (x1 : Vec F S1x32x1024 .f32) (x2 : Vec F S1x1024x32 .f32) : Vec F S1x512x1024 .f32 :=
  View.canon [⟨r0_0, k0_pay1 (View.ld x0 r0_0) (View.ld x1 r0_1) (View.ld x2 r0_2)⟩]

/-- The one store covers the whole buffer. -/
theorem cover0_3 (p0 : Vec F S1x512x1024 .f32) (y : S1x512x1024.Idx) :
    ∃ pc ∈ ([⟨r0_0, p0⟩] : List (View.Piece (Elt F) S1x512x1024 .f32)), y ∈ pc.1.set :=
  View.cover_of_tiled [⟨r0_0, p0⟩] S1x512x1024.size (by rfl) y

/-! ## The body's triple -/

set_option maxHeartbeats 1000000 in
/-- The kernel body on whole staging buffers, the inputs' at contents `xW` and the output's at anything, runs to the
    continuation holding the inputs' as they were and the output's at `out0_3` of the inputs'. -/
theorem sound_kernel (c : Dev nD) (E : Set ℕ) (i : grid0.Coords) (arg2 : Memref sig .tc .vmem S1x512x1024 .f32) (harg2 : arg2.IsWhole) (arg3 : Memref sig .tc .vmem S1x32x1024 .f32) (harg3 : arg3.IsWhole) (arg4 : Memref sig .tc .vmem S1x1024x32 .f32) (harg4 : arg4.IsWhole) (arg5 : Memref sig .tc .vmem S1x512x1024 .f32) (harg5 : arg5.IsWhole)
    (x0 : Vec F S1x512x1024 .f32) (x1 : Vec F S1x32x1024 .f32) (x2 : Vec F S1x1024x32 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__lora_kernel i arg2 harg2 arg3 harg3 arg4 harg4 arg5 harg5) K := by
  simp only [cc0__lora_kernel_eq_skeleton]; unfold cc0__lora_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the one pipeline on core `c`: the arrays as the region finds them; after the body at point
    `t` each input's buffer at its block and the output's at `out0_3` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    the core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state has
    every array of the pipeline at what the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: termination without a fault, and the seventeen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Gen

end
-- ==== Proof.Spec.lean ====
/-
  The adapter-routing layer as one function of its seventeen arrays, and the law that joins the kernel's
  arrangement of it to the reference's.

  Batch element b is served by adapter b mod 8. Adapter a has rank R_a (8, 16, 32, 8, 16, 32, 8, 16), a down
  projection B_a : [R_a, 1024], an up projection A_a : [1024, R_a] and a scale c_a (the float words of 1/8, 1/16,
  1/32). Its update of row (b, s) at output feature o is

      ( Σ_{r < R_a} ( Σ_{d < 1024} x[b, s, d] · B_a[r, d] ) · A_a[o, r] ) · c_a .

  The kernel pads both projections with zeros to rank 32 and folds the scale into A before the products:

      Σ_{r < 32} ( Σ_{d} x[b, s, d] · Bpad_a[r, d] ) · Apad_a[o, r],   Apad_a[o, r] = A_a[o, r] · c_a  (r < R_a), 0 otherwise.

  On the extended reals a product with 0 is 0 whatever the other factor, so the padded terms vanish; products
  are associative; and a product with a nonnegative real distributes over any sum. So the two agree with no
  finiteness assumption on the inputs.
-/
import Idealize.ShloMosaic.PureOps.Ideal
import Idealize.ShloMosaic.PureOps.Ideal.Laws
import Idealize.ShloMosaic.Lib.ValueIdx

noncomputable section

open scoped BigOperators

namespace Lora

open Idealize.ShloMosaic Idealize.ShloMosaic.ValueIdx

/-- The scales, as the float words both programs print: 1/8, 1/16, 1/32. -/
abbrev c8 : EReal := Ideal.ofBits .f32 0x3E000000#32
abbrev c16 : EReal := Ideal.ofBits .f32 0x3D800000#32
abbrev c32 : EReal := Ideal.ofBits .f32 0x3D000000#32

/-- One adapter's update of row (b, s) at output feature o: down projection, up projection, scale. -/
def adapt {R : Nat} (c : EReal) (x : (⟨3, ![16, 2048, 1024]⟩ : Shape).Idx → EReal)
    (A : (⟨2, ![1024, R]⟩ : Shape).Idx → EReal) (B : (⟨2, ![R, 1024]⟩ : Shape).Idx → EReal)
    (b : Fin 16) (s : Fin 2048) (o : Fin 1024) : EReal :=
  (∑ r : Fin R, (∑ d : Fin 1024, x (ix3 b s d) * B (ix2 r d)) * A (ix2 o r)) * c

/-- Entry k mod 8 of a table of eight. -/
def pick {α : Type} (k : Nat) (v : Fin 8 → α) : α := v ⟨k % 8, Nat.mod_lt _ (by decide)⟩

/-- The layer: batch element b takes adapter b mod 8. The arrays come in the programs' argument order
    x, A0, B0, A1, B1, …, A7, B7. -/
def G (x : (⟨3, ![16, 2048, 1024]⟩ : Shape).Idx → EReal)
    (A0 : (⟨2, ![1024, 8]⟩ : Shape).Idx → EReal) (B0 : (⟨2, ![8, 1024]⟩ : Shape).Idx → EReal)
    (A1 : (⟨2, ![1024, 16]⟩ : Shape).Idx → EReal) (B1 : (⟨2, ![16, 1024]⟩ : Shape).Idx → EReal)
    (A2 : (⟨2, ![1024, 32]⟩ : Shape).Idx → EReal) (B2 : (⟨2, ![32, 1024]⟩ : Shape).Idx → EReal)
    (A3 : (⟨2, ![1024, 8]⟩ : Shape).Idx → EReal) (B3 : (⟨2, ![8, 1024]⟩ : Shape).Idx → EReal)
    (A4 : (⟨2, ![1024, 16]⟩ : Shape).Idx → EReal) (B4 : (⟨2, ![16, 1024]⟩ : Shape).Idx → EReal)
    (A5 : (⟨2, ![1024, 32]⟩ : Shape).Idx → EReal) (B5 : (⟨2, ![32, 1024]⟩ : Shape).Idx → EReal)
    (A6 : (⟨2, ![1024, 8]⟩ : Shape).Idx → EReal) (B6 : (⟨2, ![8, 1024]⟩ : Shape).Idx → EReal)
    (A7 : (⟨2, ![1024, 16]⟩ : Shape).Idx → EReal) (B7 : (⟨2, ![16, 1024]⟩ : Shape).Idx → EReal) :
    (⟨3, ![16, 2048, 1024]⟩ : Shape).Idx → EReal := fun i =>
  pick (i 0).val ![adapt c8 x A0 B0 (i 0) (i 1) (i 2), adapt c16 x A1 B1 (i 0) (i 1) (i 2),
    adapt c32 x A2 B2 (i 0) (i 1) (i 2), adapt c8 x A3 B3 (i 0) (i 1) (i 2),
    adapt c16 x A4 B4 (i 0) (i 1) (i 2), adapt c32 x A5 B5 (i 0) (i 1) (i 2),
    adapt c8 x A6 B6 (i 0) (i 1) (i 2), adapt c16 x A7 B7 (i 0) (i 1) (i 2)]

/-- B zero-padded to 32 rows. -/
def padB {R : Nat} (B : (⟨2, ![R, 1024]⟩ : Shape).Idx → EReal) (r : Fin 32) (d : Fin 1024) : EReal :=
  if h : r.val < R then B (ix2 ⟨r.val, h⟩ d) else 0

/-- A times the scale, zero-padded to 32 columns. -/
def padA {R : Nat} (c : EReal) (A : (⟨2, ![1024, R]⟩ : Shape).Idx → EReal) (o : Fin 1024) (r : Fin 32) : EReal :=
  if h : r.val < R then A (ix2 o ⟨r.val, h⟩) * c else 0

/-- A product with a nonnegative real distributes over a finite sum of extended reals: the real factor is
    neither infinite nor negative, which is all that one step of distributivity needs. -/
theorem sum_mul_real {ι : Type} (t : Finset ι) (f : ι → EReal) (q : ℝ) (hq : 0 ≤ q) :
    (∑ i ∈ t, f i) * (q : EReal) = ∑ i ∈ t, f i * (q : EReal) := by
  classical
  induction t using Finset.induction_on with
  | empty => simp
  | insert a t ha ih =>
    rw [Finset.sum_insert ha, Finset.sum_insert ha,
      EReal.right_distrib_of_nonneg_of_ne_top (EReal.coe_nonneg.mpr hq) (EReal.coe_ne_top q), ih]

/-- A family on Fin R continued by zeros up to n ≥ R has the sum of the family: write n = R + k, the first R
    terms are the family's and the last k are zero. -/
theorem sum_zero_padded {R n : Nat} (hR : R ≤ n) (f : Fin R → EReal) :
    ∑ r : Fin n, (if h : r.val < R then f ⟨r.val, h⟩ else 0) = ∑ r : Fin R, f r := by
  obtain ⟨k, rfl⟩ := Nat.exists_eq_add_of_le hR
  rw [Fin.sum_univ_add]
  have h1 : ∀ i : Fin R,
      (if h : (Fin.castAdd k i).val < R then f ⟨(Fin.castAdd k i).val, h⟩ else 0) = f i := by
    intro i
    have hi : (Fin.castAdd k i).val < R := i.isLt
    rw [dif_pos hi]
    exact congrArg f (Fin.ext rfl)
  have h2 : ∀ i : Fin k,
      (if h : (Fin.natAdd R i).val < R then f ⟨(Fin.natAdd R i).val, h⟩ else 0) = 0 := by
    intro i
    have hi : ¬ (Fin.natAdd R i).val < R := by simp
    rw [dif_neg hi]
  simp only [h1, h2, Finset.sum_const_zero, add_zero]

/-- Each scale word is a nonnegative real. -/
theorem c8_real : ∃ q : ℝ, 0 ≤ q ∧ c8 = (q : EReal) := by
  -- sign 0, exponent field 124, fraction 0: 2^23 · 2^(124 - 127 - 23) = 1/8
  refine ⟨1 / 8, by norm_num, ?_⟩
  simp [c8, Ideal.ofBits, Ideal.ieee, -EReal.coe_mul]; norm_num
theorem c16_real : ∃ q : ℝ, 0 ≤ q ∧ c16 = (q : EReal) := by
  -- sign 0, exponent field 123, fraction 0: 2^23 · 2^(123 - 127 - 23) = 1/16
  refine ⟨1 / 16, by norm_num, ?_⟩
  simp [c16, Ideal.ofBits, Ideal.ieee, -EReal.coe_mul]; norm_num
theorem c32_real : ∃ q : ℝ, 0 ≤ q ∧ c32 = (q : EReal) := by
  -- sign 0, exponent field 122, fraction 0: 2^23 · 2^(122 - 127 - 23) = 1/32
  refine ⟨1 / 32, by norm_num, ?_⟩
  simp [c32, Ideal.ofBits, Ideal.ieee, -EReal.coe_mul]; norm_num

/-- The kernel's arrangement (both projections zero-padded to rank 32, the scale folded into A) is the adapter's
    update: the padded terms are products with 0, products are associative, and the nonnegative real scale
    distributes over the sum. -/
theorem adapt_padded {R : Nat} (hR : R ≤ 32) (c : EReal) (hc : ∃ q : ℝ, 0 ≤ q ∧ c = (q : EReal))
    (x : (⟨3, ![16, 2048, 1024]⟩ : Shape).Idx → EReal)
    (A : (⟨2, ![1024, R]⟩ : Shape).Idx → EReal) (B : (⟨2, ![R, 1024]⟩ : Shape).Idx → EReal)
    (b : Fin 16) (s : Fin 2048) (o : Fin 1024) :
    ∑ r : Fin 32, (∑ d : Fin 1024, x (ix3 b s d) * padB B r d) * padA c A o r = adapt c x A B b s o := by
  obtain ⟨q, hq, rfl⟩ := hc
  unfold adapt
  rw [sum_mul_real _ _ q hq, ← sum_zero_padded hR]
  refine Finset.sum_congr rfl fun r _ => ?_
  by_cases h : r.val < R
  · -- a kept term: both pads read the arrays, and the product is associative
    simp only [padA, padB, dif_pos h]
    rw [mul_assoc]
  · -- a padded term: the second factor is 0
    simp only [padA, dif_neg h, mul_zero]

end Lora

end
-- ==== Proof.KIHost.lean ====
/-
  What the region finds in the two stacked arrays the host prefix builds, read at an index.
  Block a of the stacked-B array is adapter a's B zero-padded to 32 rows; block a of the stacked-A array is
  adapter a's A times its scale, zero-padded to 32 columns.

  Each array is first written as the term its operations compute from the launch arrays: the fold over the prefix's operations
  is read at the array's reference, every operation that writes another reference dropping out. That term is then read at an
  index: a stack of eight one-block pieces at block a is piece a; a leading axis of extent one is dropped; a pad with no low
  and no interior padding is its operand inside the operand's extent and the pad value, the integer zero converted, outside.
-/
import proofs.«144235_g44933947850968_cont_8to1_c_774_6_alg».proof.Proof.KIFrame
import proofs.«144235_g44933947850968_cont_8to1_c_774_6_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import Idealize.ShloMosaic.Lib.IdealHost

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

section Congr
variable {α : Type}

/-- Two stacks of eight pieces of one shape agree when they agree piece by piece. -/
theorem concat8_congr {t s : Shape} {a : Fin t.rank} {P0 P1 P2 P3 P4 P5 P6 P7 Q0 Q1 Q2 Q3 Q4 Q5 Q6 Q7 : s.Idx → α}
    (h : Shape.Concatenates [s, s, s, s, s, s, s, s] t a)
    (e0 : P0 = Q0) (e1 : P1 = Q1) (e2 : P2 = Q2) (e3 : P3 = Q3) (e4 : P4 = Q4) (e5 : P5 = Q5) (e6 : P6 = Q6) (e7 : P7 = Q7) :
    concatenate t a [⟨s, P0⟩, ⟨s, P1⟩, ⟨s, P2⟩, ⟨s, P3⟩, ⟨s, P4⟩, ⟨s, P5⟩, ⟨s, P6⟩, ⟨s, P7⟩] h
      = concatenate t a [⟨s, Q0⟩, ⟨s, Q1⟩, ⟨s, Q2⟩, ⟨s, Q3⟩, ⟨s, Q4⟩, ⟨s, Q5⟩, ⟨s, Q6⟩, ⟨s, Q7⟩] h := by
  subst e0 e1 e2 e3 e4 e5 e6 e7; rfl

end Congr

/-- The stacking operation of the down projections: its result is the stack of what its eight operand arrays hold. -/
theorem v16_result (hxs hy) (F : Valuation τ sig (Elt Ideal)) :
    (StableHlo.nary (τ := τ) ![main_v8, main_v9, main_v10, main_v11, main_v12, main_v13, main_v14, main_v15] main_v16
        (fun u => concatenate S8x32x1024 0 [⟨S1x32x1024, u 0⟩, ⟨S1x32x1024, u 1⟩, ⟨S1x32x1024, u 2⟩, ⟨S1x32x1024, u 3⟩, ⟨S1x32x1024, u 4⟩, ⟨S1x32x1024, u 5⟩, ⟨S1x32x1024, u 6⟩, ⟨S1x32x1024, u 7⟩]
          concatenates_S1x32x1024_S1x32x1024_S1x32x1024_S1x32x1024_S1x32x1024_S1x32x1024_S1x32x1024_S1x32x1024_S8x32x1024_d0) hxs hy).result F
        (no_index (Proc.devRef .tc main_v16))
      = concatenate S8x32x1024 0 [⟨S1x32x1024, F (Proc.devRef .tc main_v8)⟩, ⟨S1x32x1024, F (Proc.devRef .tc main_v9)⟩, ⟨S1x32x1024, F (Proc.devRef .tc main_v10)⟩,
          ⟨S1x32x1024, F (Proc.devRef .tc main_v11)⟩, ⟨S1x32x1024, F (Proc.devRef .tc main_v12)⟩, ⟨S1x32x1024, F (Proc.devRef .tc main_v13)⟩,
          ⟨S1x32x1024, F (Proc.devRef .tc main_v14)⟩, ⟨S1x32x1024, F (Proc.devRef .tc main_v15)⟩]
          concatenates_S1x32x1024_S1x32x1024_S1x32x1024_S1x32x1024_S1x32x1024_S1x32x1024_S1x32x1024_S1x32x1024_S8x32x1024_d0 := by
  rw [StableHlo.nary_result]; rfl

/-- The stacking operation of the up projections, likewise. -/
theorem v49_result (hxs hy) (F : Valuation τ sig (Elt Ideal)) :
    (StableHlo.nary (τ := τ) ![main_v41, main_v42, main_v43, main_v44, main_v45, main_v46, main_v47, main_v48] main_v49
        (fun u => concatenate S8x1024x32 0 [⟨S1x1024x32, u 0⟩, ⟨S1x1024x32, u 1⟩, ⟨S1x1024x32, u 2⟩, ⟨S1x1024x32, u 3⟩, ⟨S1x1024x32, u 4⟩, ⟨S1x1024x32, u 5⟩, ⟨S1x1024x32, u 6⟩, ⟨S1x1024x32, u 7⟩]
          concatenates_S1x1024x32_S1x1024x32_S1x1024x32_S1x1024x32_S1x1024x32_S1x1024x32_S1x1024x32_S1x1024x32_S8x1024x32_d0) hxs hy).result F
        (no_index (Proc.devRef .tc main_v49))
      = concatenate S8x1024x32 0 [⟨S1x1024x32, F (Proc.devRef .tc main_v41)⟩, ⟨S1x1024x32, F (Proc.devRef .tc main_v42)⟩, ⟨S1x1024x32, F (Proc.devRef .tc main_v43)⟩,
          ⟨S1x1024x32, F (Proc.devRef .tc main_v44)⟩, ⟨S1x1024x32, F (Proc.devRef .tc main_v45)⟩, ⟨S1x1024x32, F (Proc.devRef .tc main_v46)⟩,
          ⟨S1x1024x32, F (Proc.devRef .tc main_v47)⟩, ⟨S1x1024x32, F (Proc.devRef .tc main_v48)⟩]
          concatenates_S1x1024x32_S1x1024x32_S1x1024x32_S1x1024x32_S1x1024x32_S1x1024x32_S1x1024x32_S1x1024x32_S8x1024x32_d0 := by
  rw [StableHlo.nary_result]; rfl

section Read
variable {α : Type}

/-- Eight pieces of one block each, stacked along the leading axis and read in block `a`: piece `a` at the same row and
    column. -/
theorem concat8_apply {p q : Nat} (P0 P1 P2 P3 P4 P5 P6 P7 : (⟨3, ![1, p, q]⟩ : Shape).Idx → α)
    (h : Shape.Concatenates [(⟨3, ![1, p, q]⟩ : Shape), ⟨3, ![1, p, q]⟩, ⟨3, ![1, p, q]⟩, ⟨3, ![1, p, q]⟩, ⟨3, ![1, p, q]⟩,
      ⟨3, ![1, p, q]⟩, ⟨3, ![1, p, q]⟩, ⟨3, ![1, p, q]⟩] ⟨3, ![8, p, q]⟩ 0)
    (a : Fin 8) (r : Fin p) (d : Fin q) :
    concatenate (⟨3, ![8, p, q]⟩ : Shape) 0 [⟨⟨3, ![1, p, q]⟩, P0⟩, ⟨⟨3, ![1, p, q]⟩, P1⟩, ⟨⟨3, ![1, p, q]⟩, P2⟩, ⟨⟨3, ![1, p, q]⟩, P3⟩,
        ⟨⟨3, ![1, p, q]⟩, P4⟩, ⟨⟨3, ![1, p, q]⟩, P5⟩, ⟨⟨3, ![1, p, q]⟩, P6⟩, ⟨⟨3, ![1, p, q]⟩, P7⟩] h (ix3 a r d)
      = (![P0, P1, P2, P3, P4, P5, P6, P7] : Fin 8 → (⟨3, ![1, p, q]⟩ : Shape).Idx → α) a (ix3 0 r d) :=
  concatenate_ofFn_unit_apply (t := ⟨3, ![8, p, q]⟩) (s₁ := ⟨3, ![1, p, q]⟩) 0 ![P0, P1, P2, P3, P4, P5, P6, P7] h rfl rfl
    (ix3 a r d) a rfl (ix3 0 r d)
    (fun b hb => match b, hb with
      | ⟨0, _⟩, hb => absurd rfl hb
      | ⟨1, _⟩, _ => rfl
      | ⟨2, _⟩, _ => rfl)

/-- A matrix given a leading axis of extent one reads, in its one block, as the matrix. -/
theorem bcastLead_apply {p q : Nat} (X : (⟨2, ![p, q]⟩ : Shape).Idx → α)
    (h : (⟨2, ![p, q]⟩ : Shape).BroadcastsInDim ⟨3, ![1, p, q]⟩ ![1, 2]) (r : Fin p) (d : Fin q) :
    broadcastInDim (⟨3, ![1, p, q]⟩ : Shape) ![1, 2] h X (ix3 0 r d) = X (ix2 r d) := by
  refine broadcastInDim_apply _ h X _ (ix2 r d) (fun a => ?_)
  have hr := r.isLt
  have hd := d.isLt
  match a with
  | ⟨0, _⟩ => show r.val = if p = 1 then 0 else r.val; split <;> omega
  | ⟨1, _⟩ => show d.val = if q = 1 then 0 else d.val; split <;> omega

end Read

/-- The converted integer zero, the value every pad of the prefix fills with, is the real zero. -/
theorem padValue_zero (j : S_.Idx) : (sitofp .f32 (constantI S_ 32 0#32) : FVec Ideal S_ .f32) j = (0 : EReal) := by
  show ((((0#32 : BitVec 32).toInt : ℤ) : ℝ) : EReal) = 0
  simp

/-- A down projection padded below with rows of a value that is zero: the projection on its own rows, zero on the rest. -/
theorem padRows_apply {R hi : Nat} (B : (⟨2, ![R, 1024]⟩ : Shape).Idx → EReal) (v : S_.Idx → EReal)
    (h : (⟨2, ![R, 1024]⟩ : Shape).Pads ![0, 0] ![hi, 0] ![0, 0] ⟨2, ![32, 1024]⟩) (hu : 0 < S_.numel)
    (hv : ∀ j, v j = 0) (r : Fin 32) (d : Fin 1024) :
    pad (⟨2, ![32, 1024]⟩ : Shape) ![0, 0] ![hi, 0] ![0, 0] B v h hu (ix2 r d) = Lora.padB B r d := by
  unfold Lora.padB
  by_cases hr : r.val < R
  · rw [dif_pos hr]
    refine pad_apply_of_inside _ _ _ B v h hu (ix2 r d) (ix2 ⟨r.val, hr⟩ d) (fun a => ?_)
    match a with
    | ⟨0, _⟩ => show r.val = 0 + r.val * (0 + 1); omega
    | ⟨1, _⟩ => show d.val = 0 + d.val * (0 + 1); omega
  · rw [dif_neg hr, pad_apply_of_not_inside _ _ _ B v h hu (ix2 r d) ⟨0, Nat.zero_lt_two⟩ ?_, hv]
    show ¬(0 ≤ r.val ∧ (r.val - 0) % (0 + 1) = 0 ∧ (r.val - 0) / (0 + 1) < R)
    omega

/-- An up projection times a splat scale, padded on the right with columns of a value that is zero: the scaled projection
    on its own columns, zero on the rest. -/
theorem padCols_apply {R hi : Nat} (A : (⟨2, ![1024, R]⟩ : Shape).Idx → EReal) (w : BitVec 32) (v : S_.Idx → EReal)
    (hb : S_.BroadcastsInDim ⟨2, ![1024, R]⟩ ![])
    (h : (⟨2, ![1024, R]⟩ : Shape).Pads ![0, 0] ![0, hi] ![0, 0] ⟨2, ![1024, 32]⟩) (hu : 0 < S_.numel)
    (hv : ∀ j, v j = 0) (o : Fin 1024) (r : Fin 32) :
    pad (⟨2, ![1024, 32]⟩ : Shape) ![0, 0] ![0, hi] ![0, 0]
        (mulf (A : FVec Ideal ⟨2, ![1024, R]⟩ .f32) (broadcastInDim ⟨2, ![1024, R]⟩ ![] hb (constant (F := Ideal) S_ .f32 w))) v h hu (ix2 o r)
      = Lora.padA (Ideal.ofBits .f32 w) A o r := by
  unfold Lora.padA
  by_cases hr : r.val < R
  · rw [dif_pos hr]
    refine (pad_apply_of_inside _ _ _ _ v h hu (ix2 o r) (ix2 o ⟨r.val, hr⟩) (fun a => ?_)).trans rfl
    match a with
    | ⟨0, _⟩ => show o.val = 0 + o.val * (0 + 1); omega
    | ⟨1, _⟩ => show r.val = 0 + r.val * (0 + 1); omega
  · rw [dif_neg hr, pad_apply_of_not_inside _ _ _ _ v h hu (ix2 o r) ⟨1, Nat.one_lt_two⟩ ?_, hv]
    show ¬(0 ≤ r.val ∧ (r.val - 0) % (0 + 1) = 0 ∧ (r.val - 0) / (0 + 1) < R)
    omega

variable (m : (ℓ : Loc nD τ sig) → Buf (Elt Ideal) ℓ)

set_option maxHeartbeats 2000000 in
/-- The stacked-B array as a term over the launch arrays: the stack of the eight down projections, each padded below to 32 rows
    with the converted integer zero and given a leading axis of extent one. No later operation writes it, and each operand array
    is written once, by the operation that makes it. -/
theorem V_v16_eq (c : Dev nD) :
    (V (F := Ideal) m c main_v16 : S8x32x1024.Idx → EReal)
      = concatenate S8x32x1024 0 [⟨S1x32x1024, broadcastInDim S1x32x1024 ![1, 2] bcast_S32x1024_S1x32x1024_1_2 (pad S32x1024 ![0, 0] ![24, 0] ![0, 0] (m ((c : Thread nD τ).loc main_arg2)) (sitofp .f32 (constantI S_ 32 0#32) : FVec Ideal S_ .f32) pads_S8x1024_S32x1024_0240_000 h_S_)⟩,
          ⟨S1x32x1024, broadcastInDim S1x32x1024 ![1, 2] bcast_S32x1024_S1x32x1024_1_2 (pad S32x1024 ![0, 0] ![16, 0] ![0, 0] (m ((c : Thread nD τ).loc main_arg4)) (sitofp .f32 (constantI S_ 32 0#32) : FVec Ideal S_ .f32) pads_S16x1024_S32x1024_0160_000 h_S_)⟩,
          ⟨S1x32x1024, broadcastInDim S1x32x1024 ![1, 2] bcast_S32x1024_S1x32x1024_1_2 (pad S32x1024 ![0, 0] ![0, 0] ![0, 0] (m ((c : Thread nD τ).loc main_arg6)) (sitofp .f32 (constantI S_ 32 0#32) : FVec Ideal S_ .f32) pads_S32x1024_S32x1024_000_000 h_S_)⟩,
          ⟨S1x32x1024, broadcastInDim S1x32x1024 ![1, 2] bcast_S32x1024_S1x32x1024_1_2 (pad S32x1024 ![0, 0] ![24, 0] ![0, 0] (m ((c : Thread nD τ).loc main_arg8)) (sitofp .f32 (constantI S_ 32 0#32) : FVec Ideal S_ .f32) pads_S8x1024_S32x1024_0240_000 h_S_)⟩,
          ⟨S1x32x1024, broadcastInDim S1x32x1024 ![1, 2] bcast_S32x1024_S1x32x1024_1_2 (pad S32x1024 ![0, 0] ![16, 0] ![0, 0] (m ((c : Thread nD τ).loc main_arg10)) (sitofp .f32 (constantI S_ 32 0#32) : FVec Ideal S_ .f32) pads_S16x1024_S32x1024_0160_000 h_S_)⟩,
          ⟨S1x32x1024, broadcastInDim S1x32x1024 ![1, 2] bcast_S32x1024_S1x32x1024_1_2 (pad S32x1024 ![0, 0] ![0, 0] ![0, 0] (m ((c : Thread nD τ).loc main_arg12)) (sitofp .f32 (constantI S_ 32 0#32) : FVec Ideal S_ .f32) pads_S32x1024_S32x1024_000_000 h_S_)⟩,
          ⟨S1x32x1024, broadcastInDim S1x32x1024 ![1, 2] bcast_S32x1024_S1x32x1024_1_2 (pad S32x1024 ![0, 0] ![24, 0] ![0, 0] (m ((c : Thread nD τ).loc main_arg14)) (sitofp .f32 (constantI S_ 32 0#32) : FVec Ideal S_ .f32) pads_S8x1024_S32x1024_0240_000 h_S_)⟩,
          ⟨S1x32x1024, broadcastInDim S1x32x1024 ![1, 2] bcast_S32x1024_S1x32x1024_1_2 (pad S32x1024 ![0, 0] ![16, 0] ![0, 0] (m ((c : Thread nD τ).loc main_arg16)) (sitofp .f32 (constantI S_ 32 0#32) : FVec Ideal S_ .f32) pads_S16x1024_S32x1024_0160_000 h_S_)⟩]
          concatenates_S1x32x1024_S1x32x1024_S1x32x1024_S1x32x1024_S1x32x1024_S1x32x1024_S1x32x1024_S1x32x1024_S8x32x1024_d0 := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append, List.nil_append]
  simp (disch := decide) only [StableHlo.after_cons, StableHlo.after_nil, v16_result, v49_result,
    StableHlo.nullary_result', StableHlo.unary_result', StableHlo.binary_result',
    StableHlo.nullary_result_ne', StableHlo.unary_result_ne', StableHlo.binary_result_ne', StableHlo.nary_result_ne']
  refine concat8_congr _ ?_ ?_ ?_ ?_ ?_ ?_ ?_ ?_
  all_goals (simp (disch := decide) only [StableHlo.after_cons, StableHlo.after_nil, v16_result, v49_result,
    StableHlo.nullary_result', StableHlo.unary_result', StableHlo.binary_result',
    StableHlo.nullary_result_ne', StableHlo.unary_result_ne', StableHlo.binary_result_ne', StableHlo.nary_result_ne'])
  all_goals (try simp only [StableHlo.TRef.ofBuf, StableHlo.TRef.toBuf, cast_eq])
  all_goals rfl

set_option maxHeartbeats 2000000 in
/-- The stacked-A array as a term over the launch arrays: the stack of the eight up projections, each multiplied by its splat scale,
    padded on the right to 32 columns with the converted integer zero and given a leading axis of extent one. -/
theorem V_v49_eq (c : Dev nD) :
    (V (F := Ideal) m c main_v49 : S8x1024x32.Idx → EReal)
      = concatenate S8x1024x32 0 [⟨S1x1024x32, broadcastInDim S1x1024x32 ![1, 2] bcast_S1024x32_S1x1024x32_1_2 (pad S1024x32 ![0, 0] ![0, 24] ![0, 0] (mulf (m ((c : Thread nD τ).loc main_arg1)) (broadcastInDim S1024x8 ![] bcast_S_S1024x8 (constant (F := Ideal) S_ .f32 0x3E000000#32))) (sitofp .f32 (constantI S_ 32 0#32) : FVec Ideal S_ .f32) pads_S1024x8_S1024x32_000_0240 h_S_)⟩,
          ⟨S1x1024x32, broadcastInDim S1x1024x32 ![1, 2] bcast_S1024x32_S1x1024x32_1_2 (pad S1024x32 ![0, 0] ![0, 16] ![0, 0] (mulf (m ((c : Thread nD τ).loc main_arg3)) (broadcastInDim S1024x16 ![] bcast_S_S1024x16 (constant (F := Ideal) S_ .f32 0x3D800000#32))) (sitofp .f32 (constantI S_ 32 0#32) : FVec Ideal S_ .f32) pads_S1024x16_S1024x32_000_0160 h_S_)⟩,
          ⟨S1x1024x32, broadcastInDim S1x1024x32 ![1, 2] bcast_S1024x32_S1x1024x32_1_2 (pad S1024x32 ![0, 0] ![0, 0] ![0, 0] (mulf (m ((c : Thread nD τ).loc main_arg5)) (broadcastInDim S1024x32 ![] bcast_S_S1024x32 (constant (F := Ideal) S_ .f32 0x3D000000#32))) (sitofp .f32 (constantI S_ 32 0#32) : FVec Ideal S_ .f32) pads_S1024x32_S1024x32_000_000 h_S_)⟩,
          ⟨S1x1024x32, broadcastInDim S1x1024x32 ![1, 2] bcast_S1024x32_S1x1024x32_1_2 (pad S1024x32 ![0, 0] ![0, 24] ![0, 0] (mulf (m ((c : Thread nD τ).loc main_arg7)) (broadcastInDim S1024x8 ![] bcast_S_S1024x8 (constant (F := Ideal) S_ .f32 0x3E000000#32))) (sitofp .f32 (constantI S_ 32 0#32) : FVec Ideal S_ .f32) pads_S1024x8_S1024x32_000_0240 h_S_)⟩,
          ⟨S1x1024x32, broadcastInDim S1x1024x32 ![1, 2] bcast_S1024x32_S1x1024x32_1_2 (pad S1024x32 ![0, 0] ![0, 16] ![0, 0] (mulf (m ((c : Thread nD τ).loc main_arg9)) (broadcastInDim S1024x16 ![] bcast_S_S1024x16 (constant (F := Ideal) S_ .f32 0x3D800000#32))) (sitofp .f32 (constantI S_ 32 0#32) : FVec Ideal S_ .f32) pads_S1024x16_S1024x32_000_0160 h_S_)⟩,
          ⟨S1x1024x32, broadcastInDim S1x1024x32 ![1, 2] bcast_S1024x32_S1x1024x32_1_2 (pad S1024x32 ![0, 0] ![0, 0] ![0, 0] (mulf (m ((c : Thread nD τ).loc main_arg11)) (broadcastInDim S1024x32 ![] bcast_S_S1024x32 (constant (F := Ideal) S_ .f32 0x3D000000#32))) (sitofp .f32 (constantI S_ 32 0#32) : FVec Ideal S_ .f32) pads_S1024x32_S1024x32_000_000 h_S_)⟩,
          ⟨S1x1024x32, broadcastInDim S1x1024x32 ![1, 2] bcast_S1024x32_S1x1024x32_1_2 (pad S1024x32 ![0, 0] ![0, 24] ![0, 0] (mulf (m ((c : Thread nD τ).loc main_arg13)) (broadcastInDim S1024x8 ![] bcast_S_S1024x8 (constant (F := Ideal) S_ .f32 0x3E000000#32))) (sitofp .f32 (constantI S_ 32 0#32) : FVec Ideal S_ .f32) pads_S1024x8_S1024x32_000_0240 h_S_)⟩,
          ⟨S1x1024x32, broadcastInDim S1x1024x32 ![1, 2] bcast_S1024x32_S1x1024x32_1_2 (pad S1024x32 ![0, 0] ![0, 16] ![0, 0] (mulf (m ((c : Thread nD τ).loc main_arg15)) (broadcastInDim S1024x16 ![] bcast_S_S1024x16 (constant (F := Ideal) S_ .f32 0x3D800000#32))) (sitofp .f32 (constantI S_ 32 0#32) : FVec Ideal S_ .f32) pads_S1024x16_S1024x32_000_0160 h_S_)⟩]
          concatenates_S1x1024x32_S1x1024x32_S1x1024x32_S1x1024x32_S1x1024x32_S1x1024x32_S1x1024x32_S1x1024x32_S8x1024x32_d0 := by
  dsimp only [V, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append, List.nil_append]
  simp (disch := decide) only [StableHlo.after_cons, StableHlo.after_nil, v16_result, v49_result,
    StableHlo.nullary_result', StableHlo.unary_result', StableHlo.binary_result',
    StableHlo.nullary_result_ne', StableHlo.unary_result_ne', StableHlo.binary_result_ne', StableHlo.nary_result_ne']
  refine concat8_congr _ ?_ ?_ ?_ ?_ ?_ ?_ ?_ ?_
  all_goals (simp (disch := decide) only [StableHlo.after_cons, StableHlo.after_nil, v16_result, v49_result,
    StableHlo.nullary_result', StableHlo.unary_result', StableHlo.binary_result',
    StableHlo.nullary_result_ne', StableHlo.unary_result_ne', StableHlo.binary_result_ne', StableHlo.nary_result_ne'])
  all_goals (try simp only [StableHlo.TRef.ofBuf, StableHlo.TRef.toBuf, cast_eq])
  all_goals rfl

/-- The stacked-B array as the region finds it, at block a, row r, column d. -/
theorem V_v16_apply (c : Dev nD) (a : Fin 8) (r : Fin 32) (d : Fin 1024) :
    (V (F := Ideal) m c main_v16 : S8x32x1024.Idx → EReal) (ix3 a r d)
      = Lora.pick a.val ![Lora.padB (m ((c : Thread nD τ).loc main_arg2)) r d, Lora.padB (m ((c : Thread nD τ).loc main_arg4)) r d,
          Lora.padB (m ((c : Thread nD τ).loc main_arg6)) r d, Lora.padB (m ((c : Thread nD τ).loc main_arg8)) r d,
          Lora.padB (m ((c : Thread nD τ).loc main_arg10)) r d, Lora.padB (m ((c : Thread nD τ).loc main_arg12)) r d,
          Lora.padB (m ((c : Thread nD τ).loc main_arg14)) r d, Lora.padB (m ((c : Thread nD τ).loc main_arg16)) r d] := by
  rw [V_v16_eq m c]
  refine (concat8_apply _ _ _ _ _ _ _ _ _ a r d).trans ?_
  match a with
  | ⟨0, _⟩ => exact (bcastLead_apply _ bcast_S32x1024_S1x32x1024_1_2 r d).trans (padRows_apply (hi := 24) _ _ pads_S8x1024_S32x1024_0240_000 h_S_ padValue_zero r d)
  | ⟨1, _⟩ => exact (bcastLead_apply _ bcast_S32x1024_S1x32x1024_1_2 r d).trans (padRows_apply (hi := 16) _ _ pads_S16x1024_S32x1024_0160_000 h_S_ padValue_zero r d)
  | ⟨2, _⟩ => exact (bcastLead_apply _ bcast_S32x1024_S1x32x1024_1_2 r d).trans (padRows_apply (hi := 0) _ _ pads_S32x1024_S32x1024_000_000 h_S_ padValue_zero r d)
  | ⟨3, _⟩ => exact (bcastLead_apply _ bcast_S32x1024_S1x32x1024_1_2 r d).trans (padRows_apply (hi := 24) _ _ pads_S8x1024_S32x1024_0240_000 h_S_ padValue_zero r d)
  | ⟨4, _⟩ => exact (bcastLead_apply _ bcast_S32x1024_S1x32x1024_1_2 r d).trans (padRows_apply (hi := 16) _ _ pads_S16x1024_S32x1024_0160_000 h_S_ padValue_zero r d)
  | ⟨5, _⟩ => exact (bcastLead_apply _ bcast_S32x1024_S1x32x1024_1_2 r d).trans (padRows_apply (hi := 0) _ _ pads_S32x1024_S32x1024_000_000 h_S_ padValue_zero r d)
  | ⟨6, _⟩ => exact (bcastLead_apply _ bcast_S32x1024_S1x32x1024_1_2 r d).trans (padRows_apply (hi := 24) _ _ pads_S8x1024_S32x1024_0240_000 h_S_ padValue_zero r d)
  | ⟨7, _⟩ => exact (bcastLead_apply _ bcast_S32x1024_S1x32x1024_1_2 r d).trans (padRows_apply (hi := 16) _ _ pads_S16x1024_S32x1024_0160_000 h_S_ padValue_zero r d)

/-- The stacked-A array as the region finds it, at block a, row o, column r. -/
theorem V_v49_apply (c : Dev nD) (a : Fin 8) (o : Fin 1024) (r : Fin 32) :
    (V (F := Ideal) m c main_v49 : S8x1024x32.Idx → EReal) (ix3 a o r)
      = Lora.pick a.val ![Lora.padA Lora.c8 (m ((c : Thread nD τ).loc main_arg1)) o r, Lora.padA Lora.c16 (m ((c : Thread nD τ).loc main_arg3)) o r,
          Lora.padA Lora.c32 (m ((c : Thread nD τ).loc main_arg5)) o r, Lora.padA Lora.c8 (m ((c : Thread nD τ).loc main_arg7)) o r,
          Lora.padA Lora.c16 (m ((c : Thread nD τ).loc main_arg9)) o r, Lora.padA Lora.c32 (m ((c : Thread nD τ).loc main_arg11)) o r,
          Lora.padA Lora.c8 (m ((c : Thread nD τ).loc main_arg13)) o r, Lora.padA Lora.c16 (m ((c : Thread nD τ).loc main_arg15)) o r] := by
  rw [V_v49_eq m c]
  refine (concat8_apply _ _ _ _ _ _ _ _ _ a o r).trans ?_
  match a with
  | ⟨0, _⟩ => exact (bcastLead_apply _ bcast_S1024x32_S1x1024x32_1_2 o r).trans (padCols_apply (hi := 24) _ _ _ bcast_S_S1024x8 pads_S1024x8_S1024x32_000_0240 h_S_ padValue_zero o r)
  | ⟨1, _⟩ => exact (bcastLead_apply _ bcast_S1024x32_S1x1024x32_1_2 o r).trans (padCols_apply (hi := 16) _ _ _ bcast_S_S1024x16 pads_S1024x16_S1024x32_000_0160 h_S_ padValue_zero o r)
  | ⟨2, _⟩ => exact (bcastLead_apply _ bcast_S1024x32_S1x1024x32_1_2 o r).trans (padCols_apply (hi := 0) _ _ _ bcast_S_S1024x32 pads_S1024x32_S1024x32_000_000 h_S_ padValue_zero o r)
  | ⟨3, _⟩ => exact (bcastLead_apply _ bcast_S1024x32_S1x1024x32_1_2 o r).trans (padCols_apply (hi := 24) _ _ _ bcast_S_S1024x8 pads_S1024x8_S1024x32_000_0240 h_S_ padValue_zero o r)
  | ⟨4, _⟩ => exact (bcastLead_apply _ bcast_S1024x32_S1x1024x32_1_2 o r).trans (padCols_apply (hi := 16) _ _ _ bcast_S_S1024x16 pads_S1024x16_S1024x32_000_0160 h_S_ padValue_zero o r)
  | ⟨5, _⟩ => exact (bcastLead_apply _ bcast_S1024x32_S1x1024x32_1_2 o r).trans (padCols_apply (hi := 0) _ _ _ bcast_S_S1024x32 pads_S1024x32_S1024x32_000_000 h_S_ padValue_zero o r)
  | ⟨6, _⟩ => exact (bcastLead_apply _ bcast_S1024x32_S1x1024x32_1_2 o r).trans (padCols_apply (hi := 24) _ _ _ bcast_S_S1024x8 pads_S1024x8_S1024x32_000_0240 h_S_ padValue_zero o r)
  | ⟨7, _⟩ => exact (bcastLead_apply _ bcast_S1024x32_S1x1024x32_1_2 o r).trans (padCols_apply (hi := 16) _ _ _ bcast_S_S1024x16 pads_S1024x16_S1024x32_000_0160 h_S_ padValue_zero o r)

end Cert.KernelIdeal.Hand

end
-- ==== Proof.KIValue.lean ====
/-
  The idealized kernel's result array after the run, as the layer's function of the argument arrays.

  The region's body, at grid point (b, s), multiplies the x block (rows 512 s … 512 s + 511 of batch element b) by
  the transpose of block b mod 8 of the stacked-B array, and the product by the transpose of block b mod 8 of the
  stacked-A array. Read at an index, a product into a zero accumulator is the sum over the contracted coordinate, so
  the output block holds, at row p and output feature o,

      Σ_{r < 32} ( Σ_{d < 1024} x[b, 512 s + p, d] · Bs[b mod 8, r, d] ) · As[b mod 8, o, r] .

  This is one function of the three arrays, restricted to the block; the 64 output blocks tile the result array
  (index (b, s', o) lies in the block of point (b, s' / 512)), so after the run the result array is that function.
  The stacked arrays hold each adapter's zero-padded B and scaled, zero-padded A, and for each of the eight adapters
  the padded arrangement equals the adapter's update; x is as launched. Hence the layer's value.
-/
import proofs.«144235_g44933947850968_cont_8to1_c_774_6_alg».proof.Proof.KIHost
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Idealize.ShloMosaic.Pipeline (Dat)
open scoped BigOperators

variable (m : (ℓ : Loc nD τ sig) → Buf (Elt Ideal) ℓ) (ρ : Dev nD → PrngReg)

namespace Region

/-- A product of an M×K matrix with the transpose of an N×K matrix, into a zero accumulator, at an index. -/
theorem matmul_nt_apply {M K N : Nat} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    FloatOps.matmul (⟨[1], [1], [0], [0], [], [], w⟩ : DotDims _ _ _) prec A B
        (constant (F := Ideal) ⟨2, ![M, N]⟩ .f32 0x00000000#32) (ix2 a b)
      = ∑ c : Fin K, A (ix2 a c) * B (ix2 b c) := by
  rw [Ideal.matmul_constant_zero_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The body's arithmetic at an index: row p of the x block against the 32 padded rows of B, then against row o of A. -/
theorem pay_apply (v0 : Vec Ideal S1x512x1024 .f32) (v2 : Vec Ideal S1x32x1024 .f32) (v5 : Vec Ideal S1x1024x32 .f32)
    (u : Fin 1) (p : Fin 512) (o : Fin 1024) :
    (k0_pay1 (F := Ideal) v0 v2 v5 : S1x512x1024.Idx → EReal) (ix3 u p o)
      = ∑ r : Fin 32, (∑ d : Fin 1024, (v0 : S1x512x1024.Idx → EReal) (ix3 (0 : Fin 1) p d) * (v2 : S1x32x1024.Idx → EReal) (ix3 (0 : Fin 1) r d))
          * (v5 : S1x1024x32.Idx → EReal) (ix3 (0 : Fin 1) o r) := by
  unfold k0_pay1
  refine (shapeCast_ab_1ab_apply _ _ u p o).trans ?_
  refine (matmul_nt_apply _ none _ _ p o).trans ?_
  refine Finset.sum_congr rfl fun r _ => ?_
  refine congrArg₂ (· * ·) ?_ ?_
  · refine (matmul_nt_apply _ none _ _ p r).trans ?_
    refine Finset.sum_congr rfl fun d _ => ?_
    exact congrArg₂ (· * ·) (shapeCast_1ab_ab_apply _ _ p d) (shapeCast_1ab_ab_apply _ _ r d)
  · exact shapeCast_1ab_ab_apply _ _ o r

theorem hz3 : (![0, 0, 0] : Fin 3 → Nat) = fun _ => 0 := funext fun a => by fin_cases a <;> rfl

/-- The adapter of batch element b: b mod 8. -/
def blockOf (b : Fin 16) : Fin 8 := ⟨b.val % 8, Nat.mod_lt _ (by decide)⟩

/-- The region's result as one function of the three arrays it reads. -/
def Kval (X : S16x2048x1024.Idx → EReal) (Bs : S8x32x1024.Idx → EReal) (As : S8x1024x32.Idx → EReal) :
    S16x2048x1024.Idx → EReal := fun i =>
  ∑ r : Fin 32, (∑ d : Fin 1024, X (ix3 (i 0) (i 1) d) * Bs (ix3 (blockOf (i 0)) r d)) * As (ix3 (blockOf (i 0)) (i 2) r)

theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3) % 8
    ∧ win0_1.index t (1 : Fin 3) = 0
    ∧ win0_1.index t (2 : Fin 3) = 0
    ∧ win0_2.index t (0 : Fin 3) = win0_3.index t (0 : Fin 3) % 8
    ∧ win0_2.index t (1 : Fin 3) = 0
    ∧ win0_2.index t (2 : Fin 3) = 0
    ∧ win0_3.index t (0 : Fin 3) ≤ 15
    ∧ win0_3.index t (1 : Fin 3) ≤ 3
    ∧ win0_3.index t (2 : Fin 3) = 0 :=
  (by decide +kernel : ∀ t : Fin grid0.N, _)

theorem idx_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-- One point: if the three staged blocks are the rows of the arrays that index i reads, the body's value at the
    block's index j is the region's value at i. -/
theorem point_eq (x0 : Vec Ideal S1x512x1024 .f32) (x1 : Vec Ideal S1x32x1024 .f32) (x2 : Vec Ideal S1x1024x32 .f32)
    (X : S16x2048x1024.Idx → EReal) (Bs : S8x32x1024.Idx → EReal) (As : S8x1024x32.Idx → EReal)
    (j : S1x512x1024.Idx) (i : S16x2048x1024.Idx)
    (h0 : ∀ d : Fin 1024, (x0 : S1x512x1024.Idx → EReal) (ix3 (0 : Fin 1) (j 1) d) = X (ix3 (i 0) (i 1) d))
    (h1 : ∀ (r : Fin 32) (d : Fin 1024), (x1 : S1x32x1024.Idx → EReal) (ix3 (0 : Fin 1) r d) = Bs (ix3 (blockOf (i 0)) r d))
    (h2 : ∀ r : Fin 32, (x2 : S1x1024x32.Idx → EReal) (ix3 (0 : Fin 1) (j 2) r) = As (ix3 (blockOf (i 0)) (i 2) r)) :
    (k0_pay1 (F := Ideal) x0 x1 x2 : S1x512x1024.Idx → EReal) j = Kval X Bs As i := by
  refine (congrArg (k0_pay1 (F := Ideal) x0 x1 x2 : S1x512x1024.Idx → EReal) (eq_ix3 j)).trans ?_
  refine (pay_apply x0 x1 x2 (j 0) (j 1) (j 2)).trans ?_
  unfold Kval
  refine Finset.sum_congr rfl fun r _ => ?_
  refine congrArg₂ (· * ·) (Finset.sum_congr rfl fun d _ => congrArg₂ (· * ·) (h0 d) (h1 r d)) (h2 r)

/-- Where point t's output block puts its index j: batch element and row block from the point, the rest from j. -/
theorem emb_out (t : Fin cfg0.N) (j : S1x512x1024.Idx) :
    ((((cfg0.win 3).blk t).view.emb j) 0).val = win0_3.index t (0 : Fin 3) * 1 + 1 * (j 0).val
    ∧ ((((cfg0.win 3).blk t).view.emb j) 1).val = win0_3.index t (1 : Fin 3) * 512 + 1 * (j 1).val
    ∧ ((((cfg0.win 3).blk t).view.emb j) 2).val = win0_3.index t (2 : Fin 3) * 1024 + 1 * (j 2).val :=
  ⟨rfl, rfl, rfl⟩

/-- Row p, column d of point t's x block is x at the output block's batch element and row, column d. -/
theorem emb_x (t : Fin cfg0.N) (p : Fin 512) (d : Fin 1024) (i : S16x2048x1024.Idx)
    (h0 : (i 0).val = win0_3.index t (0 : Fin 3)) (h1 : (i 1).val = win0_3.index t (1 : Fin 3) * 512 + p.val) :
    ((cfg0.win 0).blk t).view.emb (ix3 (0 : Fin 1) p d) = ix3 (i 0) (i 1) d := by
  obtain ⟨e00, e01, e02, -⟩ := idx_facts t
  funext a; apply Fin.ext
  match a with
  | ⟨0, _⟩ => show win0_0.index t (0 : Fin 3) * 1 + 1 * 0 = (i 0).val; omega
  | ⟨1, _⟩ => show win0_0.index t (1 : Fin 3) * 512 + 1 * p.val = (i 1).val; omega
  | ⟨2, _⟩ => show win0_0.index t (2 : Fin 3) * 1024 + 1 * d.val = d.val; omega

/-- Row r, column d of point t's stacked-B block is the stacked-B array at block b mod 8. -/
theorem emb_B (t : Fin cfg0.N) (r : Fin 32) (d : Fin 1024) (b : Fin 16) (h0 : b.val = win0_3.index t (0 : Fin 3)) :
    ((cfg0.win 1).blk t).view.emb (ix3 (0 : Fin 1) r d) = ix3 (blockOf b) r d := by
  obtain ⟨-, -, -, e10, e11, e12, -⟩ := idx_facts t
  funext a; apply Fin.ext
  match a with
  | ⟨0, _⟩ => show win0_1.index t (0 : Fin 3) * 1 + 1 * 0 = b.val % 8; omega
  | ⟨1, _⟩ => show win0_1.index t (1 : Fin 3) * 32 + 1 * r.val = r.val; omega
  | ⟨2, _⟩ => show win0_1.index t (2 : Fin 3) * 1024 + 1 * d.val = d.val; omega

/-- Row o, column r of point t's stacked-A block is the stacked-A array at block b mod 8. -/
theorem emb_A (t : Fin cfg0.N) (o : Fin 1024) (r : Fin 32) (b : Fin 16) (h0 : b.val = win0_3.index t (0 : Fin 3)) :
    ((cfg0.win 2).blk t).view.emb (ix3 (0 : Fin 1) o r) = ix3 (blockOf b) o r := by
  obtain ⟨-, -, -, -, -, -, e20, e21, e22, -⟩ := idx_facts t
  funext a; apply Fin.ext
  match a with
  | ⟨0, _⟩ => show win0_2.index t (0 : Fin 3) * 1 + 1 * 0 = b.val % 8; omega
  | ⟨1, _⟩ => show win0_2.index t (1 : Fin 3) * 1024 + 1 * o.val = o.val; omega
  | ⟨2, _⟩ => show win0_2.index t (2 : Fin 3) * 32 + 1 * r.val = r.val; omega

/-- What point t writes back is the body's arithmetic of the three blocks staged at t: the one store covers the
    whole output buffer and each load reads a whole input buffer. -/
theorem flushed_pay (c : Dev nD) (t : Fin cfg0.N) :
    (dats m 0 c).flushed 3 t
      = (cfg0.win 3).cut (grid0.coords t) (k0_pay1 (F := Ideal) (iblk m c 0 t) (iblk m c 1 t) (iblk m c 2 t)) := by
  show (cfg0.win 3).cut (grid0.coords t) ((dats m 0 c).after 3 t) = _
  rw [after0_3]
  unfold out0_3
  rw [View.canon_unit_zero hz3]
  simp only [View.ld_unit_zero (S := S1x512x1024) hz3, View.ld_unit_zero (S := S1x32x1024) hz3, View.ld_unit_zero (S := S1x1024x32) hz3]

/-- A staged block at an index is the array the window stages at the index the block's view sends it to. -/
theorem xblk_apply (c : Dev nD) (t : Fin cfg0.N) (y : S1x512x1024.Idx) :
    (iblk (F := Ideal) m c 0 t : S1x512x1024.Idx → EReal) y = V (F := Ideal) m c main_arg0 (((cfg0.win 0).blk t).view.emb y) := rfl
theorem Bblk_apply (c : Dev nD) (t : Fin cfg0.N) (y : S1x32x1024.Idx) :
    (iblk (F := Ideal) m c 1 t : S1x32x1024.Idx → EReal) y = V (F := Ideal) m c main_v16 (((cfg0.win 1).blk t).view.emb y) := rfl
theorem Ablk_apply (c : Dev nD) (t : Fin cfg0.N) (y : S1x1024x32.Idx) :
    (iblk (F := Ideal) m c 2 t : S1x1024x32.Idx → EReal) y = V (F := Ideal) m c main_v49 (((cfg0.win 2).blk t).view.emb y) := rfl

/-- What point t writes back is its block of the region's value: the x block is rows 512 s … 512 s + 511 of batch
    element b, the two stacked blocks are those of adapter b mod 8, and the output block sits where the x block does. -/
theorem flushed_eq (c : Dev nD) (t : Fin cfg0.N) :
    (dats m 0 c).flushed 3 t = ((cfg0.win 3).blk t).view.read (Elt Ideal)
      (Kval (V (F := Ideal) m c main_arg0) (V (F := Ideal) m c main_v16) (V (F := Ideal) m c main_v49)) := by
  rw [flushed_pay]
  funext j
  obtain ⟨o0, o1, o2⟩ := emb_out t j
  have hj0 : (j 0).val < 1 := (j 0).isLt
  have q2 : win0_3.index t (2 : Fin 3) = 0 := (idx_facts t).2.2.2.2.2.2.2.2.2.2.2
  refine point_eq (iblk m c 0 t) (iblk m c 1 t) (iblk m c 2 t) (V (F := Ideal) m c main_arg0) (V (F := Ideal) m c main_v16) (V (F := Ideal) m c main_v49) j (((cfg0.win 3).blk t).view.emb j) ?_ ?_ ?_
  · intro d
    exact (xblk_apply m c t _).trans (congrArg (V (F := Ideal) m c main_arg0) (emb_x t (j 1) d (((cfg0.win 3).blk t).view.emb j) (by omega) (by omega)))
  · intro r d
    exact (Bblk_apply m c t _).trans (congrArg (V (F := Ideal) m c main_v16) (emb_B t r d ((((cfg0.win 3).blk t).view.emb j) 0) (by omega)))
  · intro r
    have e2 : (((cfg0.win 3).blk t).view.emb j) 2 = j 2 := Fin.ext (by omega)
    rw [e2]
    exact (Ablk_apply m c t _).trans (congrArg (V (F := Ideal) m c main_v49) (emb_A t (j 2) r ((((cfg0.win 3).blk t).view.emb j) 0) (by omega)))

/-- An index of the result array is in point t's block iff each coordinate is in the block's range on its axis. -/
theorem mem_blk (t : Fin cfg0.N) (i : S16x2048x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v50).slice (win0_3.rect t)).set ↔ _
  rw [View.set_slice_whole, Rect.mem_set_unit]
  exact Iff.rfl

/-- Every index (b, s, o) of the result array is in the block of the point (b, s / 512). -/
theorem covered (i : S16x2048x1024.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The result array after the run is the region's value of the three arrays the region reads. -/
theorem final (c : Dev nD) : (dats m 0 c).arrAt 3 cfg0.N
    = Kval (V (F := Ideal) m c main_arg0) (V (F := Ideal) m c main_v16) (V (F := Ideal) m c main_v49) :=
  (dats m 0 c).arrAt_eq_of_cover 3 _ (fun t _ => flushed_eq m c t) covered

/-- Entry k mod 8 of a table, named by the index it is. -/
theorem pick_eq {α : Type} (k : Nat) (a : Fin 8) (h : k % 8 = a.val) (v : Fin 8 → α) : Lora.pick k v = v a := by
  unfold Lora.pick
  exact congrArg v (Fin.ext h)

theorem mul_congr {a a' b b' : EReal} (ha : a = a') (hb : b = b') : a * b = a' * b' := by rw [ha, hb]

/-- The region's value of the arrays it finds is the layer's value of the seventeen arguments: x is untouched by the
    host prefix, the stacked arrays hold each adapter's padded B and padded, scaled A, and for each adapter the padded
    arrangement is the adapter's update. -/
theorem Kval_eq_G (c : Dev nD) :
    Kval (V (F := Ideal) m c main_arg0) (V (F := Ideal) m c main_v16) (V (F := Ideal) m c main_v49)
      = Lora.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := by
  funext i
  unfold Kval Lora.G
  rw [pick_eq (i 0).val (blockOf (i 0)) rfl]
  refine (Finset.sum_congr rfl fun r _ => mul_congr
      (Finset.sum_congr rfl fun d _ => mul_congr (congrFun (V_main_arg0 (F := Ideal) m c) (ix3 (i 0) (i 1) d))
        ((V_v16_apply m c (blockOf (i 0)) r d).trans (pick_eq _ (blockOf (i 0)) (Nat.mod_mod (i 0).val 8) _)))
      ((V_v49_apply m c (blockOf (i 0)) (i 2) r).trans (pick_eq _ (blockOf (i 0)) (Nat.mod_mod (i 0).val 8) _))).trans ?_
  generalize blockOf (i 0) = a
  fin_cases a
  · exact Lora.adapt_padded (R := 8) (by decide) Lora.c8 Lora.c8_real _ _ _ (i 0) (i 1) (i 2)
  · exact Lora.adapt_padded (R := 16) (by decide) Lora.c16 Lora.c16_real _ _ _ (i 0) (i 1) (i 2)
  · exact Lora.adapt_padded (R := 32) (by decide) Lora.c32 Lora.c32_real _ _ _ (i 0) (i 1) (i 2)
  · exact Lora.adapt_padded (R := 8) (by decide) Lora.c8 Lora.c8_real _ _ _ (i 0) (i 1) (i 2)
  · exact Lora.adapt_padded (R := 16) (by decide) Lora.c16 Lora.c16_real _ _ _ (i 0) (i 1) (i 2)
  · exact Lora.adapt_padded (R := 32) (by decide) Lora.c32 Lora.c32_real _ _ _ (i 0) (i 1) (i 2)
  · exact Lora.adapt_padded (R := 8) (by decide) Lora.c8 Lora.c8_real _ _ _ (i 0) (i 1) (i 2)
  · exact Lora.adapt_padded (R := 16) (by decide) Lora.c16 Lora.c16_real _ _ _ (i 0) (i 1) (i 2)

end Region

/-- The idealized kernel runs to the end, its result array holds the layer's value of the argument arrays, and the
    argument arrays are unchanged. -/
theorem run : θ_run (defs (F := Ideal)) (onTc (τ := τ) (main (F := Ideal))) ⟨m, fun _ => 0, ρ⟩ (fun r => ∀ c : Dev nD,
      r.2.mem ((c.tc : Thread nD τ).loc main_v50) = Lora.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)) :=
  (θ_run defs _ _).mono (fun r h c => ⟨(((h c).1 3).trans (Region.final m c)).trans (Region.Kval_eq_G m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩)
    (run_main m ρ)

end Cert.KernelIdeal.Hand

end
-- ==== Proof.RefValue.lean ====
/-
  The idealized reference's result array after the run, as the layer's function of the argument arrays.
-/
import proofs.«144235_g44933947850968_cont_8to1_c_774_6_alg».proof.ReferenceIdeal
import proofs.«144235_g44933947850968_cont_8to1_c_774_6_alg».proof.Proof.Gen.ReferenceIdeal
import proofs.«144235_g44933947850968_cont_8to1_c_774_6_alg».proof.Proof.Spec
import Idealize.ShloMosaic.Lib.StableHlo.Run
import Idealize.ShloMosaic.Lib.ValueIdx
import Idealize.ShloMosaic.PureOps.Ideal.Laws

set_option maxRecDepth 16384

noncomputable section

namespace Cert.ReferenceIdeal.Hand

open Idealize.ShloMosaic Idealize.ShloMosaic.TcCoe Idealize.ShloMosaic.ValueIdx
open Idealize.SL Idealize.SL.Sem
open Cert.ReferenceIdeal

variable (m : (ℓ : Loc nD τ sig) → Buf (Elt Ideal) ℓ) (ρ : Dev nD → PrngReg)

section Line

open Cert.ReferenceIdeal.Facts₀

variable {F : FTy → Type} [FloatOps F]

/-- The program as one straight line: the ninety-one operations in order, each call of the selecting function
    replaced by its two operations over that call's buffers. -/
abbrev ops : List (HloOp τ sig (Elt F)) :=
  [ StableHlo.nullary main_c (fun i => lit0 (S16.rowMajor i)),
    StableHlo.nullary main_cst (constant S_ .f32 0x00000000#32),
    StableHlo.unary main_cst main_v0 (broadcastInDim S16x2048x1024 ![] bcast_S_S16x2048x1024 : (⟨S_, .f32⟩ : BufTy).Contents (Elt F) → (⟨S16x2048x1024, .f32⟩ : BufTy).Contents (Elt F)),
    StableHlo.binary main_arg0 main_arg2 main_v1 ((fun l r => Host.dotGeneral dot_S16x2048x1024_S8x1024_S16x2048x8_2_1_01_0_n_n none l r) : (⟨S16x2048x1024, .f32⟩ : BufTy).Contents (Elt F) → (⟨S8x1024, .f32⟩ : BufTy).Contents (Elt F) → (⟨S16x2048x8, .f32⟩ : BufTy).Contents (Elt F)),
    StableHlo.binary main_v1 main_arg1 main_v2 ((fun l r => Host.dotGeneral dot_S16x2048x8_S1024x8_S16x2048x1024_2_1_01_0_n_n none l r) : (⟨S16x2048x8, .f32⟩ : BufTy).Contents (Elt F) → (⟨S1024x8, .f32⟩ : BufTy).Contents (Elt F) → (⟨S16x2048x1024, .f32⟩ : BufTy).Contents (Elt F)),
    StableHlo.nullary main_cst_0 (constant S_ .f32 0x3E000000#32),
    StableHlo.unary main_cst_0 main_v3 (broadcastInDim S16x2048x1024 ![] bcast_S_S16x2048x1024 : (⟨S_, .f32⟩ : BufTy).Contents (Elt F) → (⟨S16x2048x1024, .f32⟩ : BufTy).Contents (Elt F)),
    StableHlo.binary main_v2 main_v3 main_v4 (mulf : (⟨S16x2048x1024, .f32⟩ : BufTy).Contents (Elt F) → (⟨S16x2048x1024, .f32⟩ : BufTy).Contents (Elt F) → (⟨S16x2048x1024, .f32⟩ : BufTy).Contents (Elt F)),
    StableHlo.nullary main_c_1 (constantI S_ 32 0#32),
    StableHlo.unary main_c_1 main_v5 (broadcastInDim S16 ![] bcast_S_S16 : (⟨S_, .i32⟩ : BufTy).Contents (Elt F) → (⟨S16, .i32⟩ : BufTy).Contents (Elt F)),
    StableHlo.binary main_c main_v5 main_v6 (cmpi .eq : (⟨S16, .i32⟩ : BufTy).Contents (Elt F) → (⟨S16, .i32⟩ : BufTy).Contents (Elt F) → (⟨S16, .i1⟩ : BufTy).Contents (Elt F)),
    StableHlo.unary main_v6 main_v7 (broadcastInDim S16x1x1 ![0] bcast_S16_S16x1x1_0 : (⟨S16, .i1⟩ : BufTy).Contents (Elt F) → (⟨S16x1x1, .i1⟩ : BufTy).Contents (Elt F)),
    StableHlo.TRef.unary (Tx := ⟨S16x1x1, .i1⟩) (Ty := ⟨S16x2048x1024, .i1⟩) (.of main_v7) main_call0.v0 (broadcastInDim S16x2048x1024 ![0, 1, 2] bcast_S16x1x1_S16x2048x1024_0_1_2),
    StableHlo.TRef.ternary (Tc := ⟨S16x2048x1024, .i1⟩) (Ta := ⟨S16x2048x1024, .f32⟩) (Tb := ⟨S16x2048x1024, .f32⟩) (Ty := ⟨S16x2048x1024, .f32⟩) main_call0.v0 (.of main_v4) (.of main_v0) main_call0.v1 select,
    StableHlo.binary main_arg0 main_arg4 main_v9 ((fun l r => Host.dotGeneral dot_S16x2048x1024_S16x1024_S16x2048x16_2_1_01_0_n_n none l r) : (⟨S16x2048x1024, .f32⟩ : BufTy).Contents (Elt F) → (⟨S16x1024, .f32⟩ : BufTy).Contents (Elt F) → (⟨S16x2048x16, .f32⟩ : BufTy).Contents (Elt F)),
    StableHlo.binary main_v9 main_arg3 main_v10 ((fun l r => Host.dotGeneral dot_S16x2048x16_S1024x16_S16x2048x1024_2_1_01_0_n_n none l r) : (⟨S16x2048x16, .f32⟩ : BufTy).Contents (Elt F) → (⟨S1024x16, .f32⟩ : BufTy).Contents (Elt F) → (⟨S16x2048x1024, .f32⟩ : BufTy).Contents (Elt F)),
    StableHlo.nullary main_cst_2 (constant S_ .f32 0x3D800000#32),
    StableHlo.unary main_cst_2 main_v11 (broadcastInDim S16x2048x1024 ![] bcast_S_S16x2048x1024 : (⟨S_, .f32⟩ : BufTy).Contents (Elt F) → (⟨S16x2048x1024, .f32⟩ : BufTy).Contents (Elt F)),
    StableHlo.binary main_v10 main_v11 main_v12 (mulf : (⟨S16x2048x1024, .f32⟩ : BufTy).Contents (Elt F) → (⟨S16x2048x1024, .f32⟩ : BufTy).Contents (Elt F) → (⟨S16x2048x1024, .f32⟩ : BufTy).Contents (Elt F)),
    StableHlo.nullary main_c_3 (constantI S_ 32 1#32),
    StableHlo.unary main_c_3 main_v13 (broadcastInDim S16 ![] bcast_S_S16 : (⟨S_, .i32⟩ : BufTy).Contents (Elt F) → (⟨S16, .i32⟩ : BufTy).Contents (Elt F)),
    StableHlo.binary main_c main_v13 main_v14 (cmpi .eq : (⟨S16, .i32⟩ : BufTy).Contents (Elt F) → (⟨S16, .i32⟩ : BufTy).Contents (Elt F) → (⟨S16, .i1⟩ : BufTy).Contents (Elt F)),
    StableHlo.unary main_v14 main_v15 (broadcastInDim S16x1x1 ![0] bcast_S16_S16x1x1_0 : (⟨S16, .i1⟩ : BufTy).Contents (Elt F) → (⟨S16x1x1, .i1⟩ : BufTy).Contents (Elt F)),
    StableHlo.TRef.unary (Tx := ⟨S16x1x1, .i1⟩) (Ty := ⟨S16x2048x1024, .i1⟩) (.of main_v15) main_call1.v0 (broadcastInDim S16x2048x1024 ![0, 1, 2] bcast_S16x1x1_S16x2048x1024_0_1_2),
    StableHlo.TRef.ternary (Tc := ⟨S16x2048x1024, .i1⟩) (Ta := ⟨S16x2048x1024, .f32⟩) (Tb := ⟨S16x2048x1024, .f32⟩) (Ty := ⟨S16x2048x1024, .f32⟩) main_call1.v0 (.of main_v12) (.of main_v8) main_call1.v1 select,
    StableHlo.binary main_arg0 main_arg6 main_v17 ((fun l r => Host.dotGeneral dot_S16x2048x1024_S32x1024_S16x2048x32_2_1_01_0_n_n none l r) : (⟨S16x2048x1024, .f32⟩ : BufTy).Contents (Elt F) → (⟨S32x1024, .f32⟩ : BufTy).Contents (Elt F) → (⟨S16x2048x32, .f32⟩ : BufTy).Contents (Elt F)),
    StableHlo.binary main_v17 main_arg5 main_v18 ((fun l r => Host.dotGeneral dot_S16x2048x32_S1024x32_S16x2048x1024_2_1_01_0_n_n none l r) : (⟨S16x2048x32, .f32⟩ : BufTy).Contents (Elt F) → (⟨S1024x32, .f32⟩ : BufTy).Contents (Elt F) → (⟨S16x2048x1024, .f32⟩ : BufTy).Contents (Elt F)),
    StableHlo.nullary main_cst_4 (constant S_ .f32 0x3D000000#32),
    StableHlo.unary main_cst_4 main_v19 (broadcastInDim S16x2048x1024 ![] bcast_S_S16x2048x1024 : (⟨S_, .f32⟩ : BufTy).Contents (Elt F) → (⟨S16x2048x1024, .f32⟩ : BufTy).Contents (Elt F)),
    StableHlo.binary main_v18 main_v19 main_v20 (mulf : (⟨S16x2048x1024, .f32⟩ : BufTy).Contents (Elt F) → (⟨S16x2048x1024, .f32⟩ : BufTy).Contents (Elt F) → (⟨S16x2048x1024, .f32⟩ : BufTy).Contents (Elt F)),
    StableHlo.nullary main_c_5 (constantI S_ 32 2#32),
    StableHlo.unary main_c_5 main_v21 (broadcastInDim S16 ![] bcast_S_S16 : (⟨S_, .i32⟩ : BufTy).Contents (Elt F) → (⟨S16, .i32⟩ : BufTy).Contents (Elt F)),
    StableHlo.binary main_c main_v21 main_v22 (cmpi .eq : (⟨S16, .i32⟩ : BufTy).Contents (Elt F) → (⟨S16, .i32⟩ : BufTy).Contents (Elt F) → (⟨S16, .i1⟩ : BufTy).Contents (Elt F)),
    StableHlo.unary main_v22 main_v23 (broadcastInDim S16x1x1 ![0] bcast_S16_S16x1x1_0 : (⟨S16, .i1⟩ : BufTy).Contents (Elt F) → (⟨S16x1x1, .i1⟩ : BufTy).Contents (Elt F)),
    StableHlo.TRef.unary (Tx := ⟨S16x1x1, .i1⟩) (Ty := ⟨S16x2048x1024, .i1⟩) (.of main_v23) main_call2.v0 (broadcastInDim S16x2048x1024 ![0, 1, 2] bcast_S16x1x1_S16x2048x1024_0_1_2),
    StableHlo.TRef.ternary (Tc := ⟨S16x2048x1024, .i1⟩) (Ta := ⟨S16x2048x1024, .f32⟩) (Tb := ⟨S16x2048x1024, .f32⟩) (Ty := ⟨S16x2048x1024, .f32⟩) main_call2.v0 (.of main_v20) (.of main_v16) main_call2.v1 select,
    StableHlo.binary main_arg0 main_arg8 main_v25 ((fun l r => Host.dotGeneral dot_S16x2048x1024_S8x1024_S16x2048x8_2_1_01_0_n_n none l r) : (⟨S16x2048x1024, .f32⟩ : BufTy).Contents (Elt F) → (⟨S8x1024, .f32⟩ : BufTy).Contents (Elt F) → (⟨S16x2048x8, .f32⟩ : BufTy).Contents (Elt F)),
    StableHlo.binary main_v25 main_arg7 main_v26 ((fun l r => Host.dotGeneral dot_S16x2048x8_S1024x8_S16x2048x1024_2_1_01_0_n_n none l r) : (⟨S16x2048x8, .f32⟩ : BufTy).Contents (Elt F) → (⟨S1024x8, .f32⟩ : BufTy).Contents (Elt F) → (⟨S16x2048x1024, .f32⟩ : BufTy).Contents (Elt F)),
    StableHlo.nullary main_cst_6 (constant S_ .f32 0x3E000000#32),
    StableHlo.unary main_cst_6 main_v27 (broadcastInDim S16x2048x1024 ![] bcast_S_S16x2048x1024 : (⟨S_, .f32⟩ : BufTy).Contents (Elt F) → (⟨S16x2048x1024, .f32⟩ : BufTy).Contents (Elt F)),
    StableHlo.binary main_v26 main_v27 main_v28 (mulf : (⟨S16x2048x1024, .f32⟩ : BufTy).Contents (Elt F) → (⟨S16x2048x1024, .f32⟩ : BufTy).Contents (Elt F) → (⟨S16x2048x1024, .f32⟩ : BufTy).Contents (Elt F)),
    StableHlo.nullary main_c_7 (constantI S_ 32 3#32),
    StableHlo.unary main_c_7 main_v29 (broadcastInDim S16 ![] bcast_S_S16 : (⟨S_, .i32⟩ : BufTy).Contents (Elt F) → (⟨S16, .i32⟩ : BufTy).Contents (Elt F)),
    StableHlo.binary main_c main_v29 main_v30 (cmpi .eq : (⟨S16, .i32⟩ : BufTy).Contents (Elt F) → (⟨S16, .i32⟩ : BufTy).Contents (Elt F) → (⟨S16, .i1⟩ : BufTy).Contents (Elt F)),
    StableHlo.unary main_v30 main_v31 (broadcastInDim S16x1x1 ![0] bcast_S16_S16x1x1_0 : (⟨S16, .i1⟩ : BufTy).Contents (Elt F) → (⟨S16x1x1, .i1⟩ : BufTy).Contents (Elt F)),
    StableHlo.TRef.unary (Tx := ⟨S16x1x1, .i1⟩) (Ty := ⟨S16x2048x1024, .i1⟩) (.of main_v31) main_call3.v0 (broadcastInDim S16x2048x1024 ![0, 1, 2] bcast_S16x1x1_S16x2048x1024_0_1_2),
    StableHlo.TRef.ternary (Tc := ⟨S16x2048x1024, .i1⟩) (Ta := ⟨S16x2048x1024, .f32⟩) (Tb := ⟨S16x2048x1024, .f32⟩) (Ty := ⟨S16x2048x1024, .f32⟩) main_call3.v0 (.of main_v28) (.of main_v24) main_call3.v1 select,
    StableHlo.binary main_arg0 main_arg10 main_v33 ((fun l r => Host.dotGeneral dot_S16x2048x1024_S16x1024_S16x2048x16_2_1_01_0_n_n none l r) : (⟨S16x2048x1024, .f32⟩ : BufTy).Contents (Elt F) → (⟨S16x1024, .f32⟩ : BufTy).Contents (Elt F) → (⟨S16x2048x16, .f32⟩ : BufTy).Contents (Elt F)),
    StableHlo.binary main_v33 main_arg9 main_v34 ((fun l r => Host.dotGeneral dot_S16x2048x16_S1024x16_S16x2048x1024_2_1_01_0_n_n none l r) : (⟨S16x2048x16, .f32⟩ : BufTy).Contents (Elt F) → (⟨S1024x16, .f32⟩ : BufTy).Contents (Elt F) → (⟨S16x2048x1024, .f32⟩ : BufTy).Contents (Elt F)),
    StableHlo.nullary main_cst_8 (constant S_ .f32 0x3D800000#32),
    StableHlo.unary main_cst_8 main_v35 (broadcastInDim S16x2048x1024 ![] bcast_S_S16x2048x1024 : (⟨S_, .f32⟩ : BufTy).Contents (Elt F) → (⟨S16x2048x1024, .f32⟩ : BufTy).Contents (Elt F)),
    StableHlo.binary main_v34 main_v35 main_v36 (mulf : (⟨S16x2048x1024, .f32⟩ : BufTy).Contents (Elt F) → (⟨S16x2048x1024, .f32⟩ : BufTy).Contents (Elt F) → (⟨S16x2048x1024, .f32⟩ : BufTy).Contents (Elt F)),
    StableHlo.nullary main_c_9 (constantI S_ 32 4#32),
    StableHlo.unary main_c_9 main_v37 (broadcastInDim S16 ![] bcast_S_S16 : (⟨S_, .i32⟩ : BufTy).Contents (Elt F) → (⟨S16, .i32⟩ : BufTy).Contents (Elt F)),
    StableHlo.binary main_c main_v37 main_v38 (cmpi .eq : (⟨S16, .i32⟩ : BufTy).Contents (Elt F) → (⟨S16, .i32⟩ : BufTy).Contents (Elt F) → (⟨S16, .i1⟩ : BufTy).Contents (Elt F)),
    StableHlo.unary main_v38 main_v39 (broadcastInDim S16x1x1 ![0] bcast_S16_S16x1x1_0 : (⟨S16, .i1⟩ : BufTy).Contents (Elt F) → (⟨S16x1x1, .i1⟩ : BufTy).Contents (Elt F)),
    StableHlo.TRef.unary (Tx := ⟨S16x1x1, .i1⟩) (Ty := ⟨S16x2048x1024, .i1⟩) (.of main_v39) main_call4.v0 (broadcastInDim S16x2048x1024 ![0, 1, 2] bcast_S16x1x1_S16x2048x1024_0_1_2),
    StableHlo.TRef.ternary (Tc := ⟨S16x2048x1024, .i1⟩) (Ta := ⟨S16x2048x1024, .f32⟩) (Tb := ⟨S16x2048x1024, .f32⟩) (Ty := ⟨S16x2048x1024, .f32⟩) main_call4.v0 (.of main_v36) (.of main_v32) main_call4.v1 select,
    StableHlo.binary main_arg0 main_arg12 main_v41 ((fun l r => Host.dotGeneral dot_S16x2048x1024_S32x1024_S16x2048x32_2_1_01_0_n_n none l r) : (⟨S16x2048x1024, .f32⟩ : BufTy).Contents (Elt F) → (⟨S32x1024, .f32⟩ : BufTy).Contents (Elt F) → (⟨S16x2048x32, .f32⟩ : BufTy).Contents (Elt F)),
    StableHlo.binary main_v41 main_arg11 main_v42 ((fun l r => Host.dotGeneral dot_S16x2048x32_S1024x32_S16x2048x1024_2_1_01_0_n_n none l r) : (⟨S16x2048x32, .f32⟩ : BufTy).Contents (Elt F) → (⟨S1024x32, .f32⟩ : BufTy).Contents (Elt F) → (⟨S16x2048x1024, .f32⟩ : BufTy).Contents (Elt F)),
    StableHlo.nullary main_cst_10 (constant S_ .f32 0x3D000000#32),
    StableHlo.unary main_cst_10 main_v43 (broadcastInDim S16x2048x1024 ![] bcast_S_S16x2048x1024 : (⟨S_, .f32⟩ : BufTy).Contents (Elt F) → (⟨S16x2048x1024, .f32⟩ : BufTy).Contents (Elt F)),
    StableHlo.binary main_v42 main_v43 main_v44 (mulf : (⟨S16x2048x1024, .f32⟩ : BufTy).Contents (Elt F) → (⟨S16x2048x1024, .f32⟩ : BufTy).Contents (Elt F) → (⟨S16x2048x1024, .f32⟩ : BufTy).Contents (Elt F)),
    StableHlo.nullary main_c_11 (constantI S_ 32 5#32),
    StableHlo.unary main_c_11 main_v45 (broadcastInDim S16 ![] bcast_S_S16 : (⟨S_, .i32⟩ : BufTy).Contents (Elt F) → (⟨S16, .i32⟩ : BufTy).Contents (Elt F)),
    StableHlo.binary main_c main_v45 main_v46 (cmpi .eq : (⟨S16, .i32⟩ : BufTy).Contents (Elt F) → (⟨S16, .i32⟩ : BufTy).Contents (Elt F) → (⟨S16, .i1⟩ : BufTy).Contents (Elt F)),
    StableHlo.unary main_v46 main_v47 (broadcastInDim S16x1x1 ![0] bcast_S16_S16x1x1_0 : (⟨S16, .i1⟩ : BufTy).Contents (Elt F) → (⟨S16x1x1, .i1⟩ : BufTy).Contents (Elt F)),
    StableHlo.TRef.unary (Tx := ⟨S16x1x1, .i1⟩) (Ty := ⟨S16x2048x1024, .i1⟩) (.of main_v47) main_call5.v0 (broadcastInDim S16x2048x1024 ![0, 1, 2] bcast_S16x1x1_S16x2048x1024_0_1_2),
    StableHlo.TRef.ternary (Tc := ⟨S16x2048x1024, .i1⟩) (Ta := ⟨S16x2048x1024, .f32⟩) (Tb := ⟨S16x2048x1024, .f32⟩) (Ty := ⟨S16x2048x1024, .f32⟩) main_call5.v0 (.of main_v44) (.of main_v40) main_call5.v1 select,
    StableHlo.binary main_arg0 main_arg14 main_v49 ((fun l r => Host.dotGeneral dot_S16x2048x1024_S8x1024_S16x2048x8_2_1_01_0_n_n none l r) : (⟨S16x2048x1024, .f32⟩ : BufTy).Contents (Elt F) → (⟨S8x1024, .f32⟩ : BufTy).Contents (Elt F) → (⟨S16x2048x8, .f32⟩ : BufTy).Contents (Elt F)),
    StableHlo.binary main_v49 main_arg13 main_v50 ((fun l r => Host.dotGeneral dot_S16x2048x8_S1024x8_S16x2048x1024_2_1_01_0_n_n none l r) : (⟨S16x2048x8, .f32⟩ : BufTy).Contents (Elt F) → (⟨S1024x8, .f32⟩ : BufTy).Contents (Elt F) → (⟨S16x2048x1024, .f32⟩ : BufTy).Contents (Elt F)),
    StableHlo.nullary main_cst_12 (constant S_ .f32 0x3E000000#32),
    StableHlo.unary main_cst_12 main_v51 (broadcastInDim S16x2048x1024 ![] bcast_S_S16x2048x1024 : (⟨S_, .f32⟩ : BufTy).Contents (Elt F) → (⟨S16x2048x1024, .f32⟩ : BufTy).Contents (Elt F)),
    StableHlo.binary main_v50 main_v51 main_v52 (mulf : (⟨S16x2048x1024, .f32⟩ : BufTy).Contents (Elt F) → (⟨S16x2048x1024, .f32⟩ : BufTy).Contents (Elt F) → (⟨S16x2048x1024, .f32⟩ : BufTy).Contents (Elt F)),
    StableHlo.nullary main_c_13 (constantI S_ 32 6#32),
    StableHlo.unary main_c_13 main_v53 (broadcastInDim S16 ![] bcast_S_S16 : (⟨S_, .i32⟩ : BufTy).Contents (Elt F) → (⟨S16, .i32⟩ : BufTy).Contents (Elt F)),
    StableHlo.binary main_c main_v53 main_v54 (cmpi .eq : (⟨S16, .i32⟩ : BufTy).Contents (Elt F) → (⟨S16, .i32⟩ : BufTy).Contents (Elt F) → (⟨S16, .i1⟩ : BufTy).Contents (Elt F)),
    StableHlo.unary main_v54 main_v55 (broadcastInDim S16x1x1 ![0] bcast_S16_S16x1x1_0 : (⟨S16, .i1⟩ : BufTy).Contents (Elt F) → (⟨S16x1x1, .i1⟩ : BufTy).Contents (Elt F)),
    StableHlo.TRef.unary (Tx := ⟨S16x1x1, .i1⟩) (Ty := ⟨S16x2048x1024, .i1⟩) (.of main_v55) main_call6.v0 (broadcastInDim S16x2048x1024 ![0, 1, 2] bcast_S16x1x1_S16x2048x1024_0_1_2),
    StableHlo.TRef.ternary (Tc := ⟨S16x2048x1024, .i1⟩) (Ta := ⟨S16x2048x1024, .f32⟩) (Tb := ⟨S16x2048x1024, .f32⟩) (Ty := ⟨S16x2048x1024, .f32⟩) main_call6.v0 (.of main_v52) (.of main_v48) main_call6.v1 select,
    StableHlo.binary main_arg0 main_arg16 main_v57 ((fun l r => Host.dotGeneral dot_S16x2048x1024_S16x1024_S16x2048x16_2_1_01_0_n_n none l r) : (⟨S16x2048x1024, .f32⟩ : BufTy).Contents (Elt F) → (⟨S16x1024, .f32⟩ : BufTy).Contents (Elt F) → (⟨S16x2048x16, .f32⟩ : BufTy).Contents (Elt F)),
    StableHlo.binary main_v57 main_arg15 main_v58 ((fun l r => Host.dotGeneral dot_S16x2048x16_S1024x16_S16x2048x1024_2_1_01_0_n_n none l r) : (⟨S16x2048x16, .f32⟩ : BufTy).Contents (Elt F) → (⟨S1024x16, .f32⟩ : BufTy).Contents (Elt F) → (⟨S16x2048x1024, .f32⟩ : BufTy).Contents (Elt F)),
    StableHlo.nullary main_cst_14 (constant S_ .f32 0x3D800000#32),
    StableHlo.unary main_cst_14 main_v59 (broadcastInDim S16x2048x1024 ![] bcast_S_S16x2048x1024 : (⟨S_, .f32⟩ : BufTy).Contents (Elt F) → (⟨S16x2048x1024, .f32⟩ : BufTy).Contents (Elt F)),
    StableHlo.binary main_v58 main_v59 main_v60 (mulf : (⟨S16x2048x1024, .f32⟩ : BufTy).Contents (Elt F) → (⟨S16x2048x1024, .f32⟩ : BufTy).Contents (Elt F) → (⟨S16x2048x1024, .f32⟩ : BufTy).Contents (Elt F)),
    StableHlo.nullary main_c_15 (constantI S_ 32 7#32),
    StableHlo.unary main_c_15 main_v61 (broadcastInDim S16 ![] bcast_S_S16 : (⟨S_, .i32⟩ : BufTy).Contents (Elt F) → (⟨S16, .i32⟩ : BufTy).Contents (Elt F)),
    StableHlo.binary main_c main_v61 main_v62 (cmpi .eq : (⟨S16, .i32⟩ : BufTy).Contents (Elt F) → (⟨S16, .i32⟩ : BufTy).Contents (Elt F) → (⟨S16, .i1⟩ : BufTy).Contents (Elt F)),
    StableHlo.unary main_v62 main_v63 (broadcastInDim S16x1x1 ![0] bcast_S16_S16x1x1_0 : (⟨S16, .i1⟩ : BufTy).Contents (Elt F) → (⟨S16x1x1, .i1⟩ : BufTy).Contents (Elt F)),
    StableHlo.TRef.unary (Tx := ⟨S16x1x1, .i1⟩) (Ty := ⟨S16x2048x1024, .i1⟩) (.of main_v63) main_call7.v0 (broadcastInDim S16x2048x1024 ![0, 1, 2] bcast_S16x1x1_S16x2048x1024_0_1_2),
    StableHlo.TRef.ternary (Tc := ⟨S16x2048x1024, .i1⟩) (Ta := ⟨S16x2048x1024, .f32⟩) (Tb := ⟨S16x2048x1024, .f32⟩) (Ty := ⟨S16x2048x1024, .f32⟩) main_call7.v0 (.of main_v60) (.of main_v56) main_call7.v1 select ]

set_option maxHeartbeats 16000000 in
/-- The program is that line: both halves and the eight calls unfolded, the sequencing reassociated. -/
theorem main_eq (c : Dev nD) : main (F := F) c = StableHlo.seq ops := by
  simp only [main, main_part0, main_part1, fn_where.body, StableHlo.seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub ..⟩

end Line

section Term

open Cert.ReferenceIdeal.Facts₀

variable {F : FTy → Type} [FloatOps F]

/-- One adapter's array: the down projection of x by B, its up projection by A, times the splat of the scale word. -/
def scaledBy {R : Nat} (D1 : DotDims S16x2048x1024 ⟨2, ![R, 1024]⟩ ⟨3, ![16, 2048, R]⟩)
    (D2 : DotDims ⟨3, ![16, 2048, R]⟩ ⟨2, ![1024, R]⟩ S16x2048x1024) (w : BitVec 32)
    (x : FVec F S16x2048x1024 .f32) (A : FVec F ⟨2, ![1024, R]⟩ .f32) (B : FVec F ⟨2, ![R, 1024]⟩ .f32) :
    FVec F S16x2048x1024 .f32 :=
  mulf (Host.dotGeneral D2 none (Host.dotGeneral D1 none x B) A)
    (broadcastInDim S16x2048x1024 ![] bcast_S_S16x2048x1024 (constant S_ .f32 w))

/-- Adapter k's mask over the whole array: one where the batch element's table entry is k. -/
def maskOf (k : BitVec 32) : IVec S16x2048x1024 1 :=
  broadcastInDim S16x2048x1024 ![0, 1, 2] bcast_S16x1x1_S16x2048x1024_0_1_2
    (broadcastInDim S16x1x1 ![0] bcast_S16_S16x1x1_0
      (cmpi .eq (fun i => lit0 (S16.rowMajor i)) (broadcastInDim S16 ![] bcast_S_S16 (constantI S_ 32 k))))

/-- The result array as the operations compose it: from the zero array, adapter after adapter, the adapter's array
    where its mask is one and what was there before elsewhere. -/
def out (x : FVec F S16x2048x1024 .f32) (A0 : FVec F S1024x8 .f32) (B0 : FVec F S8x1024 .f32) (A1 : FVec F S1024x16 .f32) (B1 : FVec F S16x1024 .f32) (A2 : FVec F S1024x32 .f32) (B2 : FVec F S32x1024 .f32) (A3 : FVec F S1024x8 .f32) (B3 : FVec F S8x1024 .f32) (A4 : FVec F S1024x16 .f32) (B4 : FVec F S16x1024 .f32) (A5 : FVec F S1024x32 .f32) (B5 : FVec F S32x1024 .f32) (A6 : FVec F S1024x8 .f32) (B6 : FVec F S8x1024 .f32) (A7 : FVec F S1024x16 .f32) (B7 : FVec F S16x1024 .f32) :
    FVec F S16x2048x1024 .f32 :=
  (select (maskOf 7#32) (scaledBy dot_S16x2048x1024_S16x1024_S16x2048x16_2_1_01_0_n_n dot_S16x2048x16_S1024x16_S16x2048x1024_2_1_01_0_n_n 0x3D800000#32 x A7 B7)
      (select (maskOf 6#32) (scaledBy dot_S16x2048x1024_S8x1024_S16x2048x8_2_1_01_0_n_n dot_S16x2048x8_S1024x8_S16x2048x1024_2_1_01_0_n_n 0x3E000000#32 x A6 B6)
      (select (maskOf 5#32) (scaledBy dot_S16x2048x1024_S32x1024_S16x2048x32_2_1_01_0_n_n dot_S16x2048x32_S1024x32_S16x2048x1024_2_1_01_0_n_n 0x3D000000#32 x A5 B5)
      (select (maskOf 4#32) (scaledBy dot_S16x2048x1024_S16x1024_S16x2048x16_2_1_01_0_n_n dot_S16x2048x16_S1024x16_S16x2048x1024_2_1_01_0_n_n 0x3D800000#32 x A4 B4)
      (select (maskOf 3#32) (scaledBy dot_S16x2048x1024_S8x1024_S16x2048x8_2_1_01_0_n_n dot_S16x2048x8_S1024x8_S16x2048x1024_2_1_01_0_n_n 0x3E000000#32 x A3 B3)
      (select (maskOf 2#32) (scaledBy dot_S16x2048x1024_S32x1024_S16x2048x32_2_1_01_0_n_n dot_S16x2048x32_S1024x32_S16x2048x1024_2_1_01_0_n_n 0x3D000000#32 x A2 B2)
      (select (maskOf 1#32) (scaledBy dot_S16x2048x1024_S16x1024_S16x2048x16_2_1_01_0_n_n dot_S16x2048x16_S1024x16_S16x2048x1024_2_1_01_0_n_n 0x3D800000#32 x A1 B1)
      (select (maskOf 0#32) (scaledBy dot_S16x2048x1024_S8x1024_S16x2048x8_2_1_01_0_n_n dot_S16x2048x8_S1024x8_S16x2048x1024_2_1_01_0_n_n 0x3E000000#32 x A0 B0)
      (broadcastInDim S16x2048x1024 ![] bcast_S_S16x2048x1024 (constant S_ .f32 0x00000000#32))))))))))

set_option maxHeartbeats 16000000 in
/-- The line's fold at the result buffer is that composition of the argument buffers' contents. -/
theorem out_eq (V : Valuation τ sig (Elt F)) :
    StableHlo.after ops V (main_v64 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  after_results_simp
  rfl

end Term

section Value

open scoped BigOperators

/-- The down projection's dimension numbers at rank R: the feature axis of x against the feature axis of B. -/
def dnDown (R : Nat) (wf : DotDims.WF ⟨3, ![16, 2048, 1024]⟩ ⟨2, ![R, 1024]⟩ ⟨3, ![16, 2048, R]⟩ [2] [1] [0, 1] [0] [] []) :
    DotDims ⟨3, ![16, 2048, 1024]⟩ ⟨2, ![R, 1024]⟩ ⟨3, ![16, 2048, R]⟩ where
  lhsContracting := [2]
  rhsContracting := [1]
  lhsNonContracting := [0, 1]
  rhsNonContracting := [0]
  lhsBatch := []
  rhsBatch := []
  wf := wf

/-- The up projection's dimension numbers at rank R: the rank axis of the projected rows against the rank axis of A. -/
def dnUp (R : Nat) (wf : DotDims.WF ⟨3, ![16, 2048, R]⟩ ⟨2, ![1024, R]⟩ ⟨3, ![16, 2048, 1024]⟩ [2] [1] [0, 1] [0] [] []) :
    DotDims ⟨3, ![16, 2048, R]⟩ ⟨2, ![1024, R]⟩ ⟨3, ![16, 2048, 1024]⟩ where
  lhsContracting := [2]
  rhsContracting := [1]
  lhsNonContracting := [0, 1]
  rhsNonContracting := [0]
  lhsBatch := []
  rhsBatch := []
  wf := wf

variable {R : Nat}

/-- The down projection at (b, s, r): the sum over the features d of x[b, s, d] · B[r, d]. -/
theorem down_apply (wf : DotDims.WF ⟨3, ![16, 2048, 1024]⟩ ⟨2, ![R, 1024]⟩ ⟨3, ![16, 2048, R]⟩ [2] [1] [0, 1] [0] [] [])
    (x : (⟨3, ![16, 2048, 1024]⟩ : Shape).Idx → EReal) (B : (⟨2, ![R, 1024]⟩ : Shape).Idx → EReal)
    (b : Fin 16) (s : Fin 2048) (r : Fin R) :
    Host.dotGeneral (F := Ideal) (φ₁ := .f32) (φ₂ := .f32) (dnDown R wf) none x B (ix3 b s r)
      = ∑ d : Fin 1024, x (ix3 b s d) * B (ix2 r d) := by
  show FloatOps.dotGeneral (F := Ideal) (φ₁ := .f32) (φ₂ := .f32) (dnDown R wf) none .single x B (ix3 b s r) = _
  rw [Ideal.dotGeneral_apply, ← Equiv.sum_comp (contrEquiv1 (dnDown R wf) 1024 rfl rfl).symm]
  refine Finset.sum_congr rfl fun d _ => ?_
  have hl : (dnDown R wf).lhsIdx (ix3 b s r) ((contrEquiv1 (dnDown R wf) 1024 rfl rfl).symm d) = ix3 b s d := by
    funext a
    refine Fin.ext ?_
    match a with
    | ⟨0, _⟩ => rfl
    | ⟨1, _⟩ => rfl
    | ⟨2, _⟩ => exact ((dnDown R wf).lhsIdx_val_of_single rfl _ _).trans (contrEquiv1_symm_val _ _ _ _ d)
  have hr : (dnDown R wf).rhsIdx (ix3 b s r) ((contrEquiv1 (dnDown R wf) 1024 rfl rfl).symm d) = ix2 r d := by
    funext a
    refine Fin.ext ?_
    match a with
    | ⟨0, _⟩ => rfl
    | ⟨1, _⟩ => exact ((dnDown R wf).rhsIdx_val_of_single rfl _ _).trans (contrEquiv1_symm_val _ _ _ _ d)
  rw [hl, hr]

/-- The up projection at (b, s, o): the sum over the ranks r of y[b, s, r] · A[o, r]. -/
theorem up_apply (wf : DotDims.WF ⟨3, ![16, 2048, R]⟩ ⟨2, ![1024, R]⟩ ⟨3, ![16, 2048, 1024]⟩ [2] [1] [0, 1] [0] [] [])
    (y : (⟨3, ![16, 2048, R]⟩ : Shape).Idx → EReal) (A : (⟨2, ![1024, R]⟩ : Shape).Idx → EReal)
    (b : Fin 16) (s : Fin 2048) (o : Fin 1024) :
    Host.dotGeneral (F := Ideal) (φ₁ := .f32) (φ₂ := .f32) (dnUp R wf) none y A (ix3 b s o)
      = ∑ r : Fin R, y (ix3 b s r) * A (ix2 o r) := by
  show FloatOps.dotGeneral (F := Ideal) (φ₁ := .f32) (φ₂ := .f32) (dnUp R wf) none .single y A (ix3 b s o) = _
  rw [Ideal.dotGeneral_apply, ← Equiv.sum_comp (contrEquiv1 (dnUp R wf) R rfl rfl).symm]
  refine Finset.sum_congr rfl fun r _ => ?_
  have hl : (dnUp R wf).lhsIdx (ix3 b s o) ((contrEquiv1 (dnUp R wf) R rfl rfl).symm r) = ix3 b s r := by
    funext a
    refine Fin.ext ?_
    match a with
    | ⟨0, _⟩ => rfl
    | ⟨1, _⟩ => rfl
    | ⟨2, _⟩ => exact ((dnUp R wf).lhsIdx_val_of_single rfl _ _).trans (contrEquiv1_symm_val _ _ _ _ r)
  have hr : (dnUp R wf).rhsIdx (ix3 b s o) ((contrEquiv1 (dnUp R wf) R rfl rfl).symm r) = ix2 o r := by
    funext a
    refine Fin.ext ?_
    match a with
    | ⟨0, _⟩ => rfl
    | ⟨1, _⟩ => exact ((dnUp R wf).rhsIdx_val_of_single rfl _ _).trans (contrEquiv1_symm_val _ _ _ _ r)
  rw [hl, hr]

end Value

section Value2

open Cert.ReferenceIdeal.Facts₀

variable {R : Nat}

/-- One adapter's array at (b, s, o) is the adapter's update of row (b, s) at output feature o. -/
theorem scaledBy_apply (wf1 : DotDims.WF ⟨3, ![16, 2048, 1024]⟩ ⟨2, ![R, 1024]⟩ ⟨3, ![16, 2048, R]⟩ [2] [1] [0, 1] [0] [] [])
    (wf2 : DotDims.WF ⟨3, ![16, 2048, R]⟩ ⟨2, ![1024, R]⟩ ⟨3, ![16, 2048, 1024]⟩ [2] [1] [0, 1] [0] [] []) (w : BitVec 32)
    (x : (⟨3, ![16, 2048, 1024]⟩ : Shape).Idx → EReal) (A : (⟨2, ![1024, R]⟩ : Shape).Idx → EReal)
    (B : (⟨2, ![R, 1024]⟩ : Shape).Idx → EReal) (b : Fin 16) (s : Fin 2048) (o : Fin 1024) :
    scaledBy (F := Ideal) (dnDown R wf1) (dnUp R wf2) w x A B (ix3 b s o) = Lora.adapt (Ideal.ofBits .f32 w) x A B b s o := by
  unfold scaledBy Lora.adapt
  rw [mulf_apply, up_apply]
  refine congrArg₂ (· * ·) (Finset.sum_congr rfl fun r _ => ?_) rfl
  rw [down_apply]

/-- Adapter k's mask at (b, s, o) compares batch element b's table entry with k. -/
theorem maskOf_apply (k : BitVec 32) (b : Fin 16) (s : Fin 2048) (o : Fin 1024) :
    maskOf k (ix3 b s o) = IntOp.cmpi .eq (lit0 b) k := by
  have e : S16.rowMajor (ix1 b) = b := Fin.ext (Shape.rowMajor_val_one _)
  exact congrArg (fun t => IntOp.cmpi .eq (lit0 t) k) ((congrArg S16.rowMajor (funext fun a => Fin.ext (by
    match a with
    | ⟨0, _⟩ => rfl))).trans e)

/-- The eight selects on batch element b's table entry leave entry b mod 8 of the eight values: the table is
    0, …, 7, 0, …, 7. -/
theorem pick_chain {α : Type} (a0 a1 a2 a3 a4 a5 a6 a7 z : α) (b : Fin 16) :
    (Scalar.select (IntOp.cmpi .eq (lit0 b) 7#32) a7 (Scalar.select (IntOp.cmpi .eq (lit0 b) 6#32) a6 (Scalar.select (IntOp.cmpi .eq (lit0 b) 5#32) a5 (Scalar.select (IntOp.cmpi .eq (lit0 b) 4#32) a4 (Scalar.select (IntOp.cmpi .eq (lit0 b) 3#32) a3 (Scalar.select (IntOp.cmpi .eq (lit0 b) 2#32) a2 (Scalar.select (IntOp.cmpi .eq (lit0 b) 1#32) a1 (Scalar.select (IntOp.cmpi .eq (lit0 b) 0#32) a0 z))))))))
      = Lora.pick b.val ![a0, a1, a2, a3, a4, a5, a6, a7] := by
  fin_cases b <;> rfl

/-- The composed result is the layer. -/
theorem out_eq_G (x : (⟨3, ![16, 2048, 1024]⟩ : Shape).Idx → EReal)
    (A0 : (⟨2, ![1024, 8]⟩ : Shape).Idx → EReal) (B0 : (⟨2, ![8, 1024]⟩ : Shape).Idx → EReal)
    (A1 : (⟨2, ![1024, 16]⟩ : Shape).Idx → EReal) (B1 : (⟨2, ![16, 1024]⟩ : Shape).Idx → EReal)
    (A2 : (⟨2, ![1024, 32]⟩ : Shape).Idx → EReal) (B2 : (⟨2, ![32, 1024]⟩ : Shape).Idx → EReal)
    (A3 : (⟨2, ![1024, 8]⟩ : Shape).Idx → EReal) (B3 : (⟨2, ![8, 1024]⟩ : Shape).Idx → EReal)
    (A4 : (⟨2, ![1024, 16]⟩ : Shape).Idx → EReal) (B4 : (⟨2, ![16, 1024]⟩ : Shape).Idx → EReal)
    (A5 : (⟨2, ![1024, 32]⟩ : Shape).Idx → EReal) (B5 : (⟨2, ![32, 1024]⟩ : Shape).Idx → EReal)
    (A6 : (⟨2, ![1024, 8]⟩ : Shape).Idx → EReal) (B6 : (⟨2, ![8, 1024]⟩ : Shape).Idx → EReal)
    (A7 : (⟨2, ![1024, 16]⟩ : Shape).Idx → EReal) (B7 : (⟨2, ![16, 1024]⟩ : Shape).Idx → EReal) :
    out (F := Ideal) x A0 B0 A1 B1 A2 B2 A3 B3 A4 B4 A5 B5 A6 B6 A7 B7 = Lora.G x A0 B0 A1 B1 A2 B2 A3 B3 A4 B4 A5 B5 A6 B6 A7 B7 := by
  funext i
  obtain ⟨b, s, o, rfl⟩ : ∃ (b : Fin 16) (s : Fin 2048) (o : Fin 1024), i = ix3 b s o := ⟨i 0, i 1, i 2, eq_ix3 i⟩
  have h0 : scaledBy (F := Ideal) dot_S16x2048x1024_S8x1024_S16x2048x8_2_1_01_0_n_n dot_S16x2048x8_S1024x8_S16x2048x1024_2_1_01_0_n_n 0x3E000000#32 x A0 B0 (ix3 b s o) = Lora.adapt Lora.c8 x A0 B0 b s o :=
    scaledBy_apply (R := 8) _ _ _ x A0 B0 b s o
  have h1 : scaledBy (F := Ideal) dot_S16x2048x1024_S16x1024_S16x2048x16_2_1_01_0_n_n dot_S16x2048x16_S1024x16_S16x2048x1024_2_1_01_0_n_n 0x3D800000#32 x A1 B1 (ix3 b s o) = Lora.adapt Lora.c16 x A1 B1 b s o :=
    scaledBy_apply (R := 16) _ _ _ x A1 B1 b s o
  have h2 : scaledBy (F := Ideal) dot_S16x2048x1024_S32x1024_S16x2048x32_2_1_01_0_n_n dot_S16x2048x32_S1024x32_S16x2048x1024_2_1_01_0_n_n 0x3D000000#32 x A2 B2 (ix3 b s o) = Lora.adapt Lora.c32 x A2 B2 b s o :=
    scaledBy_apply (R := 32) _ _ _ x A2 B2 b s o
  have h3 : scaledBy (F := Ideal) dot_S16x2048x1024_S8x1024_S16x2048x8_2_1_01_0_n_n dot_S16x2048x8_S1024x8_S16x2048x1024_2_1_01_0_n_n 0x3E000000#32 x A3 B3 (ix3 b s o) = Lora.adapt Lora.c8 x A3 B3 b s o :=
    scaledBy_apply (R := 8) _ _ _ x A3 B3 b s o
  have h4 : scaledBy (F := Ideal) dot_S16x2048x1024_S16x1024_S16x2048x16_2_1_01_0_n_n dot_S16x2048x16_S1024x16_S16x2048x1024_2_1_01_0_n_n 0x3D800000#32 x A4 B4 (ix3 b s o) = Lora.adapt Lora.c16 x A4 B4 b s o :=
    scaledBy_apply (R := 16) _ _ _ x A4 B4 b s o
  have h5 : scaledBy (F := Ideal) dot_S16x2048x1024_S32x1024_S16x2048x32_2_1_01_0_n_n dot_S16x2048x32_S1024x32_S16x2048x1024_2_1_01_0_n_n 0x3D000000#32 x A5 B5 (ix3 b s o) = Lora.adapt Lora.c32 x A5 B5 b s o :=
    scaledBy_apply (R := 32) _ _ _ x A5 B5 b s o
  have h6 : scaledBy (F := Ideal) dot_S16x2048x1024_S8x1024_S16x2048x8_2_1_01_0_n_n dot_S16x2048x8_S1024x8_S16x2048x1024_2_1_01_0_n_n 0x3E000000#32 x A6 B6 (ix3 b s o) = Lora.adapt Lora.c8 x A6 B6 b s o :=
    scaledBy_apply (R := 8) _ _ _ x A6 B6 b s o
  have h7 : scaledBy (F := Ideal) dot_S16x2048x1024_S16x1024_S16x2048x16_2_1_01_0_n_n dot_S16x2048x16_S1024x16_S16x2048x1024_2_1_01_0_n_n 0x3D800000#32 x A7 B7 (ix3 b s o) = Lora.adapt Lora.c16 x A7 B7 b s o :=
    scaledBy_apply (R := 16) _ _ _ x A7 B7 b s o
  unfold out
  simp only [select_apply, maskOf_apply, h0, h1, h2, h3, h4, h5, h6, h7]
  exact pick_chain _ _ _ _ _ _ _ _ _ b

end Value2

section Kept

variable {F : FTy → Type} [FloatOps F]

/-- The buffers the line writes, in order: one per operation, and no argument among them. -/
abbrev written : List (Ref sig .tc) :=
  [ main_c, main_cst, main_v0, main_v1, main_v2, main_cst_0, main_v3, main_v4, main_c_1, main_v5, main_v6, main_v7, main_call0_v0, main_v8, main_v9, main_v10, main_cst_2, main_v11, main_v12, main_c_3, main_v13, main_v14, main_v15, main_call1_v0, main_v16, main_v17, main_v18, main_cst_4, main_v19, main_v20, main_c_5, main_v21, main_v22, main_v23, main_call2_v0, main_v24, main_v25, main_v26, main_cst_6, main_v27, main_v28, main_c_7, main_v29, main_v30, main_v31, main_call3_v0, main_v32, main_v33, main_v34, main_cst_8, main_v35, main_v36, main_c_9, main_v37, main_v38, main_v39, main_call4_v0, main_v40, main_v41, main_v42, main_cst_10, main_v43, main_v44, main_c_11, main_v45, main_v46, main_v47, main_call5_v0, main_v48, main_v49, main_v50, main_cst_12, main_v51, main_v52, main_c_13, main_v53, main_v54, main_v55, main_call6_v0, main_v56, main_v57, main_v58, main_cst_14, main_v59, main_v60, main_c_15, main_v61, main_v62, main_v63, main_call7_v0, main_v64 ]

/-- Each operation writes its own result buffer only. -/
theorem ops_writes : (ops : List (HloOp τ sig (Elt F))).Forall fun op =>
    op.writes ⊆ (written.map (Proc.devRef (τ := τ) .tc)).toFinset := by
  simp only [ops, List.Forall, StableHlo.TRef.unary, StableHlo.TRef.ternary, StableHlo.nullary_writes, StableHlo.unary_writes,
    StableHlo.binary_writes, StableHlo.ternary_writes, Finset.singleton_subset_iff, List.mem_toFinset]
  repeat' apply And.intro
  all_goals exact List.mem_map.mpr ⟨_, by decide, rfl⟩

/-- A buffer the line does not write keeps its contents. -/
theorem kept (V : Valuation τ sig (Elt F)) (r : Ref sig .tc) (hr : r ∉ written) :
    StableHlo.after ops V (Proc.devRef .tc r) = V (Proc.devRef .tc r) :=
  StableHlo.after_of_writes_sub ops V ops_writes hr

end Kept

/-- The idealized reference runs to the end, its result array holds the layer's value of the argument arrays, and the
    argument arrays are unchanged. -/
theorem run : θ_run (defs (F := Ideal)) (onTc (τ := τ) (main (F := Ideal))) ⟨m, fun _ => 0, ρ⟩ (fun r => ∀ c : Dev nD,
      r.2.mem ((c.tc : Thread nD τ).loc main_v64) = Lora.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)) :=
  (θ_run defs _ _).mono (fun r h c => ⟨((h c main_v64).trans (out_eq (StableHlo.launchContents m c))).trans
      (out_eq_G (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))),
      (h c main_arg0).trans (kept _ main_arg0 (by decide)),
      (h c main_arg1).trans (kept _ main_arg1 (by decide)),
      (h c main_arg2).trans (kept _ main_arg2 (by decide)),
      (h c main_arg3).trans (kept _ main_arg3 (by decide)),
      (h c main_arg4).trans (kept _ main_arg4 (by decide)),
      (h c main_arg5).trans (kept _ main_arg5 (by decide)),
      (h c main_arg6).trans (kept _ main_arg6 (by decide)),
      (h c main_arg7).trans (kept _ main_arg7 (by decide)),
      (h c main_arg8).trans (kept _ main_arg8 (by decide)),
      (h c main_arg9).trans (kept _ main_arg9 (by decide)),
      (h c main_arg10).trans (kept _ main_arg10 (by decide)),
      (h c main_arg11).trans (kept _ main_arg11 (by decide)),
      (h c main_arg12).trans (kept _ main_arg12 (by decide)),
      (h c main_arg13).trans (kept _ main_arg13 (by decide)),
      (h c main_arg14).trans (kept _ main_arg14 (by decide)),
      (h c main_arg15).trans (kept _ main_arg15 (by decide)),
      (h c main_arg16).trans (kept _ main_arg16 (by decide))⟩)
    (StableHlo.run_seq scopedRefs_eq scopedSems_eq defs main (fun _ => ops) main_eq (fun _ => ops_sub) m ρ)

end Cert.ReferenceIdeal.Hand

end
-- ==== Proof.lean ====
/-
  Multi-adapter low-rank update: the Pallas kernel against its jnp reference, over the extended reals.

  Every batch element b is served by adapter b mod 8. The kernel stacks the adapters' projections (zero-padded to
  the largest rank, the scale folded into the up projection) and lets the block index maps pick block b mod 8; the
  reference computes all eight adapters' updates of the whole batch and keeps, per batch element, the one whose
  number equals the element's adapter id. Both end with the layer's function of the seventeen arrays (`Lora.G`):
  the kernel by reading its result array off the pipeline's blocks, the reference by reading its chain of selects
  at an index. The three programs' frames come from the same runs; the ideal pass rewrote nothing, so the
  idealized kernel is the kernel's own text and that claim is trivial.
-/
import proofs.«144235_g44933947850968_cont_8to1_c_774_6_alg».proof.Defs
import proofs.«144235_g44933947850968_cont_8to1_c_774_6_alg».proof.Proof.Gen.Pre_finite_inputs
import proofs.«144235_g44933947850968_cont_8to1_c_774_6_alg».proof.Proof.KFrame
import proofs.«144235_g44933947850968_cont_8to1_c_774_6_alg».proof.Proof.KIValue
import proofs.«144235_g44933947850968_cont_8to1_c_774_6_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- Both idealized programs end with the layer's value of their argument arrays, and the arrays agree. -/
theorem algebraic : Cert.algebraic_KernelIdeal_ReferenceIdeal := by
  intro m ρ m' ρ' _ hagree
  refine ⟨fun c => Lora.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨h0, h1, h2, h3, h4, h5, h6, h7, h8, h9, h10, h11, h12, h13, h14, h15, h16⟩ := hagree c
  rw [h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
